-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S2048x1024 : Shape := ⟨2, ![2048, 1024]⟩
abbrev S2048 : Shape := ⟨1, ![2048]⟩
abbrev S1024x2048 : Shape := ⟨2, ![1024, 2048]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg1 : IVec S8x4096 32) (main_arg5 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_c_8 : IVec S_ 32 := constantI S_ 32 0#32
  let main_v24 : IVec S8x4096 32 := broadcastInDim S8x4096 ![] bcast_S_S8x4096 main_c_8
  let main_v25 : IVec S8x4096 1 := cmpi .sge main_arg1 main_v24
  let main_c_9 : IVec S_ 32 := constantI S_ 32 4#32
  let main_v26 : IVec S8x4096 32 := broadcastInDim S8x4096 ![] bcast_S_S8x4096 main_c_9
  let main_v27 : IVec S8x4096 1 := cmpi .slt main_arg1 main_v26
  let main_v28 : IVec S8x4096 1 := andi main_v25 main_v27
  let main_c_10 : IVec S_ 1 := constantI S_ 1 1#1
  let main_v29 : IVec S_ 1 := (fun x v => Host.reduce IntOp.andi x v reducesTo_S8x4096_S_d0_1 h_S_) main_v28 main_c_10
  let main_v30 : IVec S_ 1 := andi main_v23 main_v29
  main_v30

def fn {F : FTy → Type} [FloatOps F] (main_arg0 : FVec F S8x4096x1024 .f32) (main_arg1 : IVec S8x4096 32) (main_arg2 : FVec F S2048x1024 .f32) (main_arg3 : FVec F S2048 .f32) (main_arg4 : FVec F S1024x2048 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S2048x1024 .f32 := Host.absf main_arg2
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg1 main_arg5 main_v13 main_v16
-- ==== Kernel.lean ====
abbrev S8x4096x1024 : Shape := ⟨3, ![8, 4096, 1024]⟩
abbrev S8x4096 : Shape := ⟨2, ![8, 4096]⟩
abbrev S2048x1024 : Shape := ⟨2, ![2048, 1024]⟩
abbrev S2048 : Shape := ⟨1, ![2048]⟩
abbrev S1024x2048 : Shape := ⟨2, ![1024, 2048]⟩
abbrev S1024 : Shape := ⟨1, ![1024]⟩
abbrev S32768x1024 : Shape := ⟨2, ![32768, 1024]⟩
abbrev S_ : Shape := ⟨0, ![]⟩
abbrev S32768x1 : Shape := ⟨2, ![32768, 1]⟩
abbrev S1024x1024 : Shape := ⟨2, ![1024, 1024]⟩
abbrev S1x2048 : Shape := ⟨2, ![1, 2048]⟩
abbrev S1x1024 : Shape := ⟨2, ![1, 1024]⟩
abbrev S1024x1 : Shape := ⟨2, ![1024, 1]⟩
abbrev S256x1024 : Shape := ⟨2, ![256, 1024]⟩
abbrev S256x2048 : Shape := ⟨2, ![256, 2048]⟩
abbrev S256x1 : Shape := ⟨2, ![256, 1]⟩

abbrev nBuf : Space → Nat
  | .hbm => 31
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S2048x1024, .f32⟩
  | .hbm, ⟨3, _⟩ => ⟨S2048, .f32⟩
  | .hbm, ⟨4, _⟩ => ⟨S1024x2048, .f32⟩
  | .hbm, ⟨5, _⟩ => ⟨S1024, .f32⟩
  | .hbm, ⟨6, _⟩ => ⟨S32768x1024, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S8x4096, .i32⟩
  | .hbm, ⟨11, _⟩ => ⟨S8x4096, .i32⟩
  | .hbm, ⟨12, _⟩ => ⟨S_, .i32⟩
  | .hbm, ⟨13, _⟩ => ⟨S8x4096, .i32⟩
  | .hbm, ⟨14, _⟩ => ⟨S8x4096, .i32⟩
  | .hbm, ⟨15, _⟩ => ⟨S_, .i32⟩
  | .hbm, ⟨16, _⟩ => ⟨S8x4096, .i32⟩
  | .hbm, ⟨17, _⟩ => ⟨S8x4096, .i32⟩
  | .hbm, ⟨18, _⟩ => ⟨S_, .i32⟩
  | .hbm, ⟨19, _⟩ => ⟨S8x4096, .i32⟩
  | .hbm, ⟨20, _⟩ => ⟨S8x4096, .i32⟩
  | .hbm, ⟨21, _⟩ => ⟨S32768x1, .i32⟩
  | .hbm, ⟨22, _⟩ => ⟨S1024x2048, .f32⟩
  | .hbm, ⟨23, _⟩ => ⟨S1024x2048, .bf16⟩
  | .hbm, ⟨24, _⟩ => ⟨S1024x1024, .f32⟩
  | .hbm, ⟨25, _⟩ => ⟨S1024x1024, .f32⟩
  | .hbm, ⟨26, _⟩ => ⟨S1024x1024, .bf16⟩
  | .hbm, ⟨27, _⟩ => ⟨S1x2048, .f32⟩
  | .hbm, ⟨28, _⟩ => ⟨S1x1024, .f32⟩
  | .hbm, ⟨29, _⟩ => ⟨S32768x1024, .f32⟩
  | .hbm, ⟨30, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x2048, .bf16⟩
  | .local _ .vmem, ⟨5, _⟩ => ⟨S1024x1024, .bf16⟩
  | .local _ .vmem, ⟨6, _⟩ => ⟨S1x2048, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_c_1 : Ref sig .tc := ⟨.hbm, 15, rfl⟩
abbrev main_v2 : Ref sig .tc := ⟨.hbm, 16, rfl⟩
abbrev main_v3 : Ref sig .tc := ⟨.hbm, 17, rfl⟩
abbrev main_c_2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v9 : BitVec 32 := Scalar.addi c0_i32 c4_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v10 : BitVec 32 := Scalar.muli arg8 c256_i32
  v10
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v10 : BitVec 32 := Scalar.muli arg8 c256_i32
  let v11 : BitVec 32 := v10
  let v12 : Index := Scalar.indexCast v11
  let c0_8 : Index := 0#32
  ![v12.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v10 : BitVec 32 := Scalar.muli arg8 c256_i32
  let v11 : BitVec 32 := v10
  let v21 : Index := Scalar.indexCast v11
  let c0_9 : Index := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  bcast_S_S8x4096 : S_.BroadcastsInDim S8x4096 (![] : Fin 0 → Fin S8x4096.rank)
  shapeCasts_S8x4096_S32768x1 : S8x4096.ShapeCasts S32768x1
  transposes_S2048x1024_S1024x2048_1_0 : S2048x1024.Transposes [1, 0] S1024x2048
  bitsLt_bf16_f32 : FTy.bits .bf16 < FTy.bits .f32
  slices_S1024x2048_S1024x1024_0_0 : S1024x2048.Slices ![0, 0] S1024x1024
  transposes_S1024x1024_S1024x1024_1_0 : S1024x1024.Transposes [1, 0] S1024x1024
  shapeCasts_S2048_S1x2048 : S2048.ShapeCasts S1x2048
  shapeCasts_S1024_S1x1024 : S1024.ShapeCasts S1x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S256x1024_d1_w32 : S256x1024.Iotas .tc 32 [1]
  h_S256x1024 : 0 < S256x1024.numel
  shapeCasts_S256x1024_S256x1024 : S256x1024.ShapeCasts S256x1024
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  h_S256x1 : 0 < S256x1.numel
  shapeCasts_S256x1_S256x1 : S256x1.ShapeCasts S256x1
  broadcasts_S256x1_S256x1024 : S256x1.Broadcasts S256x1024
  broadcasts_S1x1024_S256x1024 : S1x1024.Broadcasts S256x1024
  shapeCasts_S32768x1024_S8x4096x1024 : S32768x1024.ShapeCasts S8x4096x1024
  dot_S256x1024_S1024x2048_S256x2048_1_0_0_1_n_n_wf : DotDims.WF S256x1024 S1024x2048 S256x2048 [1] [0] [0] [1] [] []
  dot_S256x1024_S1024x1024_S256x1024_1_0_0_1_n_n_wf : DotDims.WF S256x1024 S1024x1024 S256x1024 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x1024.size a ≤ S1024x1024.size a
  k0_off2_inb : ∀ k0_t1 : Fin k0_t1_loop.trips, ∀ a, (k0_off2 k0_t1) a + S256x1.size a ≤ S1024x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S32768x1.size a
  hwx0_1 : ∀ i : grid0.Coords, EltTy.bits .i32 = 32 ∨ (Rect.block (s := S32768x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S2048x1024 : Shape := ⟨2, ![2048, 1024]⟩
abbrev S2048 : Shape := ⟨1, ![2048]⟩
abbrev S1024x2048 : Shape := ⟨2, ![1024, 2048]⟩
abbrev S1024 : Shape := ⟨1, ![1024]⟩
abbrev S8x4096x2048 : Shape := ⟨3, ![8, 4096, 2048]⟩
abbrev S1x1x2048 : Shape := ⟨3, ![1, 1, 2048]⟩
abbrev S_ : Shape := ⟨0, ![]⟩
abbrev S8x4096x1 : Shape := ⟨3, ![8, 4096, 1]⟩
abbrev S1x1x1024 : Shape := ⟨3, ![1, 1, 1024]⟩
abbrev S1024x1024 : Shape := ⟨2, ![1024, 1024]⟩

abbrev nBuf : Space → Nat
  | .hbm => 150
  | .vmem => 0
  | .smem => 0
  | _ => 0

abbrev hbmTy0_0 (i : Nat) : BufTy := match i % 128 with
  | 0 => ⟨S8x4096x1024, .f32⟩
  | 1 => ⟨S8x4096, .i32⟩
  | 2 => ⟨S2048x1024, .f32⟩
  | 3 => ⟨S2048, .f32⟩
  | 4 => ⟨S1024x2048, .f32⟩
  | 5 => ⟨S1024, .f32⟩
  | 6 => ⟨S8x4096x2048, .f32⟩
  | 7 => ⟨S1x1x2048, .f32⟩
  | 8 => ⟨S8x4096x2048, .f32⟩
  | 9 => ⟨S8x4096x2048, .f32⟩
  | 10 => ⟨S8x4096x1024, .f32⟩
  | 11 => ⟨S8x4096x1024, .f32⟩
  | 12 => ⟨S_, .i32⟩
  | 13 => ⟨S8x4096, .i32⟩
  | 14 => ⟨S8x4096, .i32⟩
  | 15 => ⟨S_, .i32⟩
  | 16 => ⟨S_, .i32⟩
  | 17 => ⟨S_, .i1⟩
  | 18 => ⟨S_, .i32⟩
  | 19 => ⟨S8x4096, .i32⟩
  | 20 => ⟨S8x4096, .i1⟩
  | 21 => ⟨S8x4096, .i1⟩
  | 22 => ⟨S8x4096, .i1⟩
  | 23 => ⟨S_, .i32⟩
  | 24 => ⟨S_, .i32⟩
  | 25 => ⟨S8x4096, .i32⟩
  | 26 => ⟨S8x4096, .i32⟩
  | 27 => ⟨S8x4096, .i32⟩
  | 28 => ⟨S_, .i32⟩
  | 29 => ⟨S8x4096, .i32⟩
  | 30 => ⟨S8x4096, .i32⟩
  | 31 => ⟨S_, .i32⟩
  | 32 => ⟨S8x4096, .i32⟩
  | 33 => ⟨S8x4096, .i32⟩
  | 34 => ⟨S_, .i32⟩
  | 35 => ⟨S8x4096, .i32⟩
  | 36 => ⟨S8x4096, .i1⟩
  | 37 => ⟨S8x4096, .i32⟩
  | 38 => ⟨S_, .i32⟩
  | 39 => ⟨S_, .i32⟩
  | 40 => ⟨S_, .i32⟩
  | 41 => ⟨S_, .i32⟩
  | 42 => ⟨S8x4096, .i32⟩
  | 43 => ⟨S8x4096, .i32⟩
  | 44 => ⟨S_, .i32⟩
  | 45 => ⟨S8x4096, .i32⟩
  | 46 => ⟨S8x4096, .i32⟩
  | 47 => ⟨S8x4096, .i32⟩
  | 48 => ⟨S8x4096, .i32⟩
  | 49 => ⟨S_, .i32⟩
  | 50 => ⟨S8x4096, .i32⟩
  | 51 => ⟨S8x4096, .i1⟩
  | 52 => ⟨S8x4096, .i32⟩
  | 53 => ⟨S_, .i32⟩
  | 54 => ⟨S_, .i32⟩
  | 55 => ⟨S8x4096, .i32⟩
  | 56 => ⟨S8x4096, .i32⟩
  | 57 => ⟨S_, .i32⟩
  | 58 => ⟨S8x4096, .i32⟩
  | 59 => ⟨S8x4096, .i32⟩
  | 60 => ⟨S8x4096, .i32⟩
  | 61 => ⟨S8x4096, .i32⟩
  | 62 => ⟨S_, .i32⟩
  | 63 => ⟨S8x4096, .i32⟩
  | 64 => ⟨S8x4096, .i1⟩
  | 65 => ⟨S8x4096, .i32⟩
  | 66 => ⟨S_, .i32⟩
  | 67 => ⟨S_, .i32⟩
  | 68 => ⟨S8x4096, .i32⟩
  | 69 => ⟨S8x4096, .i32⟩
  | 70 => ⟨S_, .i32⟩
  | 71 => ⟨S8x4096, .i32⟩
  | 72 => ⟨S8x4096, .i32⟩
  | 73 => ⟨S8x4096, .i32⟩
  | 74 => ⟨S8x4096, .i32⟩
  | 75 => ⟨S_, .i32⟩
  | 76 => ⟨S8x4096, .i32⟩
  | 77 => ⟨S8x4096, .i1⟩
  | 78 => ⟨S8x4096, .i32⟩
  | 79 => ⟨S_, .i32⟩
  | 80 => ⟨S_, .i32⟩
  | 81 => ⟨S8x4096, .i32⟩
  | 82 => ⟨S8x4096, .i32⟩
  | 83 => ⟨S_, .i32⟩
  | 84 => ⟨S8x4096, .i32⟩
  | 85 => ⟨S8x4096, .i32⟩
  | 86 => ⟨S8x4096, .i32⟩
  | 87 => ⟨S8x4096, .i32⟩
  | 88 => ⟨S_, .i32⟩
  | 89 => ⟨S8x4096, .i32⟩
  | 90 => ⟨S8x4096, .i1⟩
  | 91 => ⟨S8x4096, .i32⟩
  | 92 => ⟨S_, .i32⟩
  | 93 => ⟨S_, .i32⟩
  | 94 => ⟨S8x4096, .i32⟩
  | 95 => ⟨S8x4096, .i32⟩
  | 96 => ⟨S_, .i32⟩
  | 97 => ⟨S8x4096, .i32⟩
  | 98 => ⟨S8x4096, .i32⟩
  | 99 => ⟨S8x4096, .i32⟩
  | 100 => ⟨S8x4096, .i32⟩
  | 101 => ⟨S_, .i32⟩
  | 102 => ⟨S8x4096, .i32⟩
  | 103 => ⟨S8x4096, .i1⟩
  | 104 => ⟨S8x4096, .i32⟩
  | 105 => ⟨S_, .i32⟩
  | 106 => ⟨S_, .i32⟩
  | 107 => ⟨S8x4096, .i32⟩
  | 108 => ⟨S8x4096, .i32⟩
  | 109 => ⟨S_, .i32⟩
  | 110 => ⟨S_, .i32⟩
  | 111 => ⟨S8x4096, .i32⟩
  | 112 => ⟨S8x4096, .i32⟩
  | 113 => ⟨S_, .i32⟩
  | 114 => ⟨S8x4096, .i32⟩
  | 115 => ⟨S8x4096, .i32⟩
  | 116 => ⟨S8x4096, .i1⟩
  | 117 => ⟨S8x4096, .i32⟩
  | 118 => ⟨S8x4096, .i32⟩
  | 119 => ⟨S_, .i32⟩
  | 120 => ⟨S8x4096, .i32⟩
  | 121 => ⟨S8x4096, .i1⟩
  | 122 => ⟨S8x4096, .i1⟩
  | 123 => ⟨S_, .i32⟩
  | 124 => ⟨S8x4096, .i32⟩
  | 125 => ⟨S8x4096, .i32⟩
  | 126 => ⟨S8x4096, .i32⟩
  | 127 => ⟨S1024, .i32⟩
  | _ => ⟨S8x4096x1024, .f32⟩

abbrev hbmTy0_1 (i : Nat) : BufTy := match i % 128 with
  | 0 => ⟨S8x4096x1, .i32⟩
  | 1 => ⟨S1x1x1024, .i32⟩
  | 2 => ⟨S8x4096x1024, .i32⟩
  | 3 => ⟨S8x4096x1024, .i32⟩
  | 4 => ⟨S8x4096x1024, .i1⟩
  | 5 => ⟨S8x4096x1024, .f32⟩
  | 6 => ⟨S8x4096x1024, .f32⟩
  | 7 => ⟨S8x4096x1024, .f32⟩
  | 8 => ⟨S_, .f32⟩
  | 9 => ⟨S8x4096x1024, .f32⟩
  | 10 => ⟨S8x4096x1024, .f32⟩
  | 11 => ⟨S_, .f32⟩
  | 12 => ⟨S8x4096x1024, .f32⟩
  | 13 => ⟨S8x4096x1024, .f32⟩
  | 14 => ⟨S8x4096x1024, .f32⟩
  | 15 => ⟨S8x4096x1024, .f32⟩
  | 16 => ⟨S8x4096x1024, .f32⟩
  | 17 => ⟨S1024x1024, .f32⟩
  | 18 => ⟨S8x4096x1024, .f32⟩
  | 19 => ⟨S1x1x1024, .f32⟩
  | 20 => ⟨S8x4096x1024, .f32⟩
  | 21 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_c_1 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_c_4 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_c_6 : Ref sig .tc := ⟨.hbm, 31, rfl⟩
abbrev main_v16 : Ref sig .tc := ⟨.hbm, 32, rfl⟩
abbrev main_v17 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c_7 : Ref sig .tc := ⟨.hbm, 38, rfl⟩
abbrev main_c_8 : Ref sig .tc := ⟨.hbm, 39, rfl⟩
abbrev main_v19 : Ref sig .tc := ⟨.hbm, 40, rfl⟩
abbrev main_c_9 : Ref sig .tc := ⟨.hbm, 41, rfl⟩
abbrev main_v20 : Ref sig .tc := ⟨.hbm, 42, rfl⟩
abbrev main_v21 : Ref sig .tc := ⟨.hbm, 43, rfl⟩
abbrev main_c_10 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_v26 : Ref sig .tc := ⟨.hbm, 52, rfl⟩
abbrev main_v27 : Ref sig .tc := ⟨.hbm, 53, rfl⟩
abbrev main_c_11 : Ref sig .tc := ⟨.hbm, 54, rfl⟩
abbrev main_v28 : Ref sig .tc := ⟨.hbm, 55, rfl⟩
abbrev main_v29 : Ref sig .tc := ⟨.hbm, 56, rfl⟩
abbrev main_c_12 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_call3_c : Ref sig .tc := ⟨.hbm, 62, rfl⟩
abbrev main_call3_v0 : Ref sig .tc := ⟨.hbm, 63, rfl⟩
abbrev main_call3_v1 : Ref sig .tc := ⟨.hbm, 64, rfl⟩
abbrev main_v34 : Ref sig .tc := ⟨.hbm, 65, rfl⟩
abbrev main_v35 : Ref sig .tc := ⟨.hbm, 66, rfl⟩
abbrev main_c_13 : Ref sig .tc := ⟨.hbm, 67, rfl⟩
abbrev main_v36 : Ref sig .tc := ⟨.hbm, 68, rfl⟩
abbrev main_v37 : Ref sig .tc := ⟨.hbm, 69, rfl⟩
abbrev main_c_14 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_call4_c : Ref sig .tc := ⟨.hbm, 75, rfl⟩
abbrev main_call4_v0 : Ref sig .tc := ⟨.hbm, 76, rfl⟩
abbrev main_call4_v1 : Ref sig .tc := ⟨.hbm, 77, rfl⟩
abbrev main_v42 : Ref sig .tc := ⟨.hbm, 78, rfl⟩
abbrev main_v43 : Ref sig .tc := ⟨.hbm, 79, rfl⟩
abbrev main_c_15 : Ref sig .tc := ⟨.hbm, 80, rfl⟩
abbrev main_v44 : Ref sig .tc := ⟨.hbm, 81, rfl⟩
abbrev main_v45 : Ref sig .tc := ⟨.hbm, 82, rfl⟩
abbrev main_c_16 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_call5_c : Ref sig .tc := ⟨.hbm, 88, rfl⟩
abbrev main_call5_v0 : Ref sig .tc := ⟨.hbm, 89, rfl⟩
abbrev main_call5_v1 : Ref sig .tc := ⟨.hbm, 90, rfl⟩
abbrev main_v50 : Ref sig .tc := ⟨.hbm, 91, rfl⟩
abbrev main_v51 : Ref sig .tc := ⟨.hbm, 92, rfl⟩
abbrev main_c_17 : Ref sig .tc := ⟨.hbm, 93, rfl⟩
abbrev main_v52 : Ref sig .tc := ⟨.hbm, 94, rfl⟩
abbrev main_v53 : Ref sig .tc := ⟨.hbm, 95, rfl⟩
abbrev main_c_18 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_call6_c : Ref sig .tc := ⟨.hbm, 101, rfl⟩
abbrev main_call6_v0 : Ref sig .tc := ⟨.hbm, 102, rfl⟩
abbrev main_call6_v1 : Ref sig .tc := ⟨.hbm, 103, rfl⟩
abbrev main_v58 : Ref sig .tc := ⟨.hbm, 104, rfl⟩
abbrev main_v59 : Ref sig .tc := ⟨.hbm, 105, rfl⟩
abbrev main_c_19 : Ref sig .tc := ⟨.hbm, 106, rfl⟩
abbrev main_v60 : Ref sig .tc := ⟨.hbm, 107, rfl⟩
abbrev main_v61 : Ref sig .tc := ⟨.hbm, 108, rfl⟩
abbrev main_c_20 : Ref sig .tc := ⟨.hbm, 109, rfl⟩
abbrev main_call7_v0 : Ref sig .tc := ⟨.hbm, 110, rfl⟩
abbrev main_call7_v1 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_call7_v5 : Ref sig .tc := ⟨.hbm, 115, rfl⟩
abbrev main_call7_v6 : Ref sig .tc := ⟨.hbm, 116, rfl⟩
abbrev main_call7_v7 : Ref sig .tc := ⟨.hbm, 117, rfl⟩
abbrev main_call7_v8 : Ref sig .tc := ⟨.hbm, 118, rfl⟩
abbrev main_call7_c : Ref sig .tc := ⟨.hbm, 119, rfl⟩
abbrev main_call7_v9 : Ref sig .tc := ⟨.hbm, 120, rfl⟩
abbrev main_call7_v10 : Ref sig .tc := ⟨.hbm, 121, rfl⟩
abbrev main_call7_v11 : Ref sig .tc := ⟨.hbm, 122, rfl⟩
abbrev main_call7_c_0 : Ref sig .tc := ⟨.hbm, 123, rfl⟩
abbrev main_call7_v12 : Ref sig .tc := ⟨.hbm, 124, rfl⟩
abbrev main_call7_v13 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_call8_v0 : Ref sig .tc := ⟨.hbm, 134, rfl⟩
abbrev main_call8_v1 : Ref sig .tc := ⟨.hbm, 135, rfl⟩
abbrev main_call8_cst : Ref sig .tc := ⟨.hbm, 136, rfl⟩
abbrev main_call8_v2 : Ref sig .tc := ⟨.hbm, 137, rfl⟩
abbrev main_call8_v3 : Ref sig .tc := ⟨.hbm, 138, rfl⟩
abbrev main_call8_cst_0 : Ref sig .tc := ⟨.hbm, 139, rfl⟩
abbrev main_call8_v4 : Ref sig .tc := ⟨.hbm, 140, rfl⟩
abbrev main_call8_v5 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  slices_S8x4096x2048_S8x4096x1024_0_0_0 : S8x4096x2048.Slices ![0, 0, 0] S8x4096x1024
  slices_S8x4096x2048_S8x4096x1024_0_0_1024 : S8x4096x2048.Slices ![0, 0, 1024] S8x4096x1024
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S8x4096x1_S8x4096x1024_0_1_2 : S8x4096x1.BroadcastsInDim S8x4096x1024 (![0, 1, 2] : Fin 3 → Fin S8x4096x1024.rank)
  bcast_S_S8x4096x1024 : S_.BroadcastsInDim S8x4096x1024 (![] : Fin 0 → Fin S8x4096x1024.rank)
  slices_S1024x2048_S1024x1024_0_0 : S1024x2048.Slices ![0, 0] S1024x1024
  dot_S8x4096x1024_S2048x1024_S8x4096x2048_2_1_01_0_n_n_wf : DotDims.WF S8x4096x1024 S2048x1024 S8x4096x2048 [2] [1] [0, 1] [0] [] []
  dot_S8x4096x1024_S1024x1024_S8x4096x1024_2_1_01_0_n_n_wf : DotDims.WF S8x4096x1024 S1024x1024 S8x4096x1024 [2] [1] [0, 1] [0] [] []

variable [Facts₀]

def dot_S8x4096x1024_S2048x1024_S8x4096x2048_2_1_01_0_n_n : DotDims S8x4096x1024 S2048x1024 S8x4096x2048 where
  lhsContracting := [2]
  rhsContracting := [1]
  lhsNonContracting := [0, 1]
  rhsNonContracting := [0]
  lhsBatch := []
  rhsBatch := []
  wf := dot_S8x4096x1024_S2048x1024_S8x4096x2048_2_1_01_0_n_n_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.Spec.lean ====
/-
  The function both programs compute, one output entry at a time, on the extended reals.

  A token (b, s) has 2048 hidden pre-activations
      z j = (∑ k, x[b,s,k] · w1[j,k]) + b1[j]            (j < 2048),
  the first 1024 the gate branch and the last 1024 the up branch.  Hidden unit h < 1024 carries
      act h = (g · σ(g)) · u,   g = z h,  u = z (1024 + h),  σ(g) = 1 / (1 + e^(−g)),
  and only the first  128 · 2^e  units are live, e = expert[b,s] the token's expert id (0 ≤ e < 4, so the widths are
  128, 256, 512, 1024); a unit that is not live contributes 0.  The output is
      out[b,s,d] = (∑ h, masked h · w2[d,h]) + b2[d]      (only the columns h < 1024 of w2 are read).
  Nothing here needs finiteness: the live/dead choice is an `if`, and the two programs multiply and add in this order.
-/
import Idealize.ShloMosaic.PureOps.Ideal
import Idealize.ShloMosaic.Lib.ValueIdx

noncomputable section

open scoped BigOperators

namespace Cert.Spec

open Idealize.ShloMosaic Idealize.ShloMosaic.ValueIdx

/-- The argument arrays' shapes. -/
abbrev SX : Shape := ⟨3, ![8, 4096, 1024]⟩
abbrev SE : Shape := ⟨2, ![8, 4096]⟩
abbrev SW1 : Shape := ⟨2, ![2048, 1024]⟩
abbrev SB1 : Shape := ⟨1, ![2048]⟩
abbrev SW2 : Shape := ⟨2, ![1024, 2048]⟩
abbrev SB2 : Shape := ⟨1, ![1024]⟩

/-- Hidden unit `h` of the gate branch, as one of the 2048 rows of `w1`. -/
abbrev lo (h : Fin 1024) : Fin 2048 := ⟨h.val, by omega⟩
/-- Hidden unit `h` of the up branch: row `1024 + h` of `w1`. -/
abbrev hi (h : Fin 1024) : Fin 2048 := ⟨1024 + h.val, by omega⟩

/-- The expert ids the statement admits. -/
def InRange (e : BitVec 32) : Prop := e = 0#32 ∨ e = 1#32 ∨ e = 2#32 ∨ e = 3#32

/-- Hidden unit `h` is live for expert `e`: it lies in the first `128 · 2^e` units. -/
def live (e : BitVec 32) (h : Fin 1024) : Prop := h.val < 128 * 2 ^ e.toNat

instance (e : BitVec 32) (h : Fin 1024) : Decidable (live e h) := by unfold live; infer_instance

variable (x : SX.Idx → EReal) (e : SE.Idx → BitVec 32) (w1 : SW1.Idx → EReal) (b1 : SB1.Idx → EReal)
  (w2 : SW2.Idx → EReal) (b2 : SB2.Idx → EReal)

/-- Pre-activation `j` of token `(b, s)`: the row of `x` against row `j` of `w1`, plus the bias. -/
def hid (b : Fin 8) (s : Fin 4096) (j : Fin 2048) : EReal :=
  (∑ k : Fin 1024, x (ix3 b s k) * w1 (ix2 j k)) + b1 (ix1 j)

/-- Hidden unit `h` before masking: `(g · σ(g)) · u`. -/
def act (b : Fin 8) (s : Fin 4096) (h : Fin 1024) : EReal :=
  (hid x w1 b1 b s (lo h) * Ideal.logistic (hid x w1 b1 b s (lo h))) * hid x w1 b1 b s (hi h)

/-- Hidden unit `h` after masking to the token's live width. -/
def masked (b : Fin 8) (s : Fin 4096) (h : Fin 1024) : EReal :=
  if live (e (ix2 b s)) h then act x w1 b1 b s h else 0

/-- Output entry `(b, s, d)`. -/
def outAt (b : Fin 8) (s : Fin 4096) (d : Fin 1024) : EReal :=
  (∑ h : Fin 1024, masked x e w1 b1 b s h * w2 (ix2 d (lo h))) + b2 (ix1 d)

end Cert.Spec

end
-- ==== Proof.PreRange.lean ====
/-
  What the precondition says about the expert ids: every entry of the second argument is one of 0, 1, 2, 3.
-/
import proofs.«428732_j68298569941561_3_alg».proof.Pre_finite_inputs
import proofs.«428732_j68298569941561_3_alg».proof.Proof.Gen.Pre_finite_inputs
import proofs.«428732_j68298569941561_3_alg».proof.Proof.Spec
import Idealize.ShloMosaic.Lib.ReduceAll
import Idealize.ShloMosaic.Lib.StableHlo.Predicate

noncomputable section

namespace Cert.PreRange

open Idealize.ShloMosaic Cert.Pre_finite_inputs

/-- A 32-bit word whose signed value is at least 0 and below 4 is one of 0, 1, 2, 3: a word is determined by its
    signed value. -/
theorem inRange_of_toInt {e : BitVec 32} (h0 : 0 ≤ e.toInt) (h4 : e.toInt < 4) : Cert.Spec.InRange e := by
  have hc : e.toInt = 0 ∨ e.toInt = 1 ∨ e.toInt = 2 ∨ e.toInt = 3 := by omega
  unfold Cert.Spec.InRange
  rcases hc with hc | hc | hc | hc
  · exact Or.inl (BitVec.eq_of_toInt_eq (by rw [hc]; decide))
  · exact Or.inr (Or.inl (BitVec.eq_of_toInt_eq (by rw [hc]; decide)))
  · exact Or.inr (Or.inr (Or.inl (BitVec.eq_of_toInt_eq (by rw [hc]; decide))))
  · exact Or.inr (Or.inr (Or.inr (BitVec.eq_of_toInt_eq (by rw [hc]; decide))))

/-- The printed precondition, all ones, puts every expert id in `{0, 1, 2, 3}`: its last conjunct is the reduction by
    `and` of `0 ≤ e ∧ e < 4` (signed compares) over the whole array. -/
theorem range_of_pre {F : FTy → Type} [FloatOps F] (a0 : FVec F S8x4096x1024 .f32) (a1 : IVec S8x4096 32)
    (a2 : FVec F S2048x1024 .f32) (a3 : FVec F S2048 .f32) (a4 : FVec F S1024x2048 .f32) (a5 : FVec F S1024 .f32)
    (h : Cert.Pre_finite_inputs.fn (F := F) a0 a1 a2 a3 a4 a5 = fun _ => 1#1) (i : S8x4096.Idx) :
    Cert.Spec.InRange (a1 i) := by
  -- the precondition at its one index
  have h0 := congrFun h (fun d => d.elim0)
  dsimp only [Cert.Pre_finite_inputs.fn, Cert.Pre_finite_inputs.fn_part1] at h0
  -- the outermost conjunction: its right operand is the reduction over the expert ids
  obtain ⟨-, hall⟩ := IntOp.andi_eq_one.1 h0
  -- the rank-0 shape has one index: there is no axis to disagree on
  haveI : Subsingleton S_.Idx := ⟨fun _ _ => funext fun d => d.elim0⟩
  -- a reduction by conjunction to the one index is one only if every entry is one
  have hi := Host.reduce_andi_all _ _ _ _ _ hall i
  -- the entry at i is the conjunction of the two compares at i
  obtain ⟨hge, hlt⟩ := IntOp.andi_eq_one.1 hi
  -- each compare against a broadcast scalar reads the scalar: 0 ≤ e and e < 4, signed
  have hge' : (0#32 : BitVec 32).toInt ≤ (a1 i).toInt := IntOp.cmpi_sge.1 hge
  have hlt' : (a1 i).toInt < (4#32 : BitVec 32).toInt := IntOp.cmpi_slt.1 hlt
  have z0 : (0#32 : BitVec 32).toInt = 0 := by decide
  have z4 : (4#32 : BitVec 32).toInt = 4 := by decide
  rw [z0] at hge'
  rw [z4] at hlt'
  exact inRange_of_toInt hge' hlt'

end Cert.PreRange

end
-- ==== Proof.KerBlock.lean ====
/-
  What one grid point leaves in the output's staging block, as ONE function of the blocks the body was given.

  The body walks its 1024-row block in four chunks of 256 rows.  Chunk k loads rows [256k, 256k + 256) of the `x`
  block and of the width column, computes the chunk's 256 × 1024 result from them and from the weights and biases loaded
  once before the loop, and stores it over rows [256k, 256k + 256) of the output block.  The four stored pieces tile the
  block, so entry (q, d) of the block is entry (q mod 256, d) of the result of chunk q / 256.
-/
import proofs.«428732_j68298569941561_3_alg».proof.Proof.Gen.KernelIdeal.Frame
import Idealize.ShloMosaic.Lib.ValueIdx
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL Idealize.SL.Sem
open Cert.KernelIdeal Cert.KernelIdeal.Gen

variable {F : FTy → Type} [FloatOps F]

/-- The loop makes four trips. -/
theorem trips_eq : k0_t1_loop.trips = 4 := by decide

/-- Rows [256k, 256k + 256) of a 1024 × 1024 block: the rows chunk `k` reads of `x` and writes of the output. -/
abbrev rowsRect (k : Fin k0_t1_loop.trips) : Rect S1024x1024 :=
  Rect.unit (s := S1024x1024) (k0_off1 k) S256x1024.size (k0_off1_inb k)
/-- The same rows of the 1024 × 1 width column. -/
abbrev widRect (k : Fin k0_t1_loop.trips) : Rect S1024x1 :=
  Rect.unit (s := S1024x1) (k0_off2 k) S256x1.size (k0_off2_inb k)

/-- ONE TRIP STORES ONE PIECE: over the chunk's rows, the body's arithmetic of the chunk's loads. -/
theorem tripL_eq (𝒱 : Variants) (c : Dev nD) (bd : Option 𝒱.V) (i : grid0.Coords) (arg1 : Memref sig .tc .vmem S1024x1024 .f32) (harg1 : arg1.IsWhole) (arg2 : Memref sig .tc .vmem S1024x1 .i32) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1x2048 .f32) (harg5 : arg5.IsWhole) (arg6 : Memref sig .tc .vmem S1x1024 .f32) (harg6 : arg6.IsWhole) (arg7 : Memref sig .tc .vmem S1024x1024 .f32) (harg7 : arg7.IsWhole) (v0 : Vec F S1024x2048 .bf16) (v2 : Vec F S1024x1024 .bf16) (v4 : Vec F S1x2048 .f32) (v6 : Vec F S1x1024 .f32) (X_arg1 : BufTy.Contents (Elt F) arg1.view.ty) (X_arg2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 v0 v2 v4 v6 X_arg1 X_arg2 k
      = [⟨rowsRect k, k0_pay1 v0 v2 v4 v6 (View.readAt (Elt F) arg1.view (rowsRect k).toLoadRect X_arg1)
            (View.readAt (Elt F) arg2.view (widRect k).toLoadRect X_arg2)⟩] := by
  unfold tripL_k0_t1 trip_k0_t1
  rfl

/-- Every piece the trips before `n` have stored is some trip's piece. -/
theorem mem_pb (𝒱 : Variants) (c : Dev nD) (bd : Option 𝒱.V) (i : grid0.Coords) (arg1 : Memref sig .tc .vmem S1024x1024 .f32) (harg1 : arg1.IsWhole) (arg2 : Memref sig .tc .vmem S1024x1 .i32) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1x2048 .f32) (harg5 : arg5.IsWhole) (arg6 : Memref sig .tc .vmem S1x1024 .f32) (harg6 : arg6.IsWhole) (arg7 : Memref sig .tc .vmem S1024x1024 .f32) (harg7 : arg7.IsWhole) (v0 : Vec F S1024x2048 .bf16) (v2 : Vec F S1024x1024 .bf16) (v4 : Vec F S1x2048 .f32) (v6 : Vec F S1x1024 .f32) (X_arg1 : BufTy.Contents (Elt F) arg1.view.ty) (X_arg2 : BufTy.Contents (Elt F) arg2.view.ty) :
    ∀ (n : Nat) (p : View.Piece (Elt F) S1024x1024 .f32),
      p ∈ pb_k0_t1 (F := F) 𝒱 c bd i arg1 harg1 arg2 harg2 arg3 harg3 arg4 harg4 arg5 harg5 arg6 harg6 arg7 harg7 v0 v2 v4 v6 X_arg1 X_arg2 n → ∃ k : Fin k0_t1_loop.trips, p ∈ tripL_k0_t1 (F := F) 𝒱 c bd i arg1 harg1 arg2 harg2 arg3 harg3 arg4 harg4 arg5 harg5 arg6 harg6 arg7 harg7 v0 v2 v4 v6 X_arg1 X_arg2 k
  | 0, p, hp => by rw [pb_k0_t1.eq_1] at hp; exact absurd hp List.not_mem_nil
  | n + 1, p, hp => by
    rw [pb_k0_t1.eq_2] at hp
    unfold pb_k0_t1Step at hp
    split at hp
    · rename_i hn
      rcases List.mem_append.mp hp with h | h
      · exact ⟨⟨n, hn⟩, h⟩
      · exact mem_pb 𝒱 c bd i arg1 harg1 arg2 harg2 arg3 harg3 arg4 harg4 arg5 harg5 arg6 harg6 arg7 harg7 v0 v2 v4 v6 X_arg1 X_arg2 n p h
    · exact mem_pb 𝒱 c bd i arg1 harg1 arg2 harg2 arg3 harg3 arg4 harg4 arg5 harg5 arg6 harg6 arg7 harg7 v0 v2 v4 v6 X_arg1 X_arg2 n p hp

/-- The chunk a row of the block belongs to, -/
def chunkOf (y : S1024x1024.Idx) : Fin k0_t1_loop.trips :=
  ⟨(y 0).val / 256, by have := idx2_lt0 y; rw [trips_eq]; omega⟩
/-- and its place inside the chunk. -/
def localOf (y : S1024x1024.Idx) : S256x1024.Idx :=
  ix2 (⟨(y 0).val % 256, Nat.mod_lt _ (by decide)⟩ : Fin 256) (⟨(y 1).val, idx2_lt1 y⟩ : Fin 1024)

/-- The block the body leaves, entry by entry: the arithmetic of the entry's chunk, at the entry's place in it. -/
def blockG (v0 : Vec F S1024x2048 .bf16) (v2 : Vec F S1024x1024 .bf16) (v4 : Vec F S1x2048 .f32) (v6 : Vec F S1x1024 .f32)
    (X1 : Vec F S1024x1024 .f32) (X2 : Vec F S1024x1 .i32) : Vec F S1024x1024 .f32 := fun y =>
  k0_pay1 v0 v2 v4 v6 (View.ld X1 (rowsRect (chunkOf y))) (View.ld X2 (widRect (chunkOf y))) (localOf y)

/-- An entry of chunk `k`'s rows, placed in the block, belongs to chunk `k`, at its own place. -/
theorem chunkOf_emb (k : Fin k0_t1_loop.trips) (x : (rowsRect k).shape.Idx) : chunkOf ((rowsRect k).emb x) = k := by
  apply Fin.ext
  show ((rowsRect k).emb x 0).val / 256 = k.val
  rw [Rect.emb_apply]
  show (k0_off1 k 0 + 1 * (x 0).val) / 256 = k.val
  rw [k0_off1_eq k]
  have hx : (x 0).val < 256 := (x 0).isLt
  show (256 * k.val + 1 * (x 0).val) / 256 = k.val
  omega

theorem localOf_emb (k : Fin k0_t1_loop.trips) (x : (rowsRect k).shape.Idx) : localOf ((rowsRect k).emb x) = x := by
  funext a
  apply Fin.ext
  match a with
  | ⟨0, _⟩ =>
    show ((rowsRect k).emb x 0).val % 256 = (x 0).val
    rw [Rect.emb_apply]
    show (k0_off1 k 0 + 1 * (x 0).val) % 256 = (x 0).val
    rw [k0_off1_eq k]
    have hx : (x 0).val < 256 := (x 0).isLt
    show (256 * k.val + 1 * (x 0).val) % 256 = (x 0).val
    omega
  | ⟨1, _⟩ =>
    show ((rowsRect k).emb x 1).val = (x 1).val
    rw [Rect.emb_apply]
    show k0_off1 k 1 + 1 * (x 1).val = (x 1).val
    rw [k0_off1_eq k]
    show 0 + 1 * (x 1).val = (x 1).val
    omega

theorem hz2 : (![0, 0] : Fin 2 → Nat) = fun _ => 0 := funext fun a => by fin_cases a <;> rfl

/-- THE OUTPUT BLOCK after the body, on any staging memrefs holding the blocks `x0 … x5`: the four pieces the run found
    are the chunks of `blockG`, and they cover the block. -/
theorem out_block (c : Dev nD) (i : grid0.Coords) (arg1 : Memref sig .tc .vmem S1024x1024 .f32) (harg1 : arg1.IsWhole) (arg2 : Memref sig .tc .vmem S1024x1 .i32) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1x2048 .f32) (harg5 : arg5.IsWhole) (arg6 : Memref sig .tc .vmem S1x1024 .f32) (harg6 : arg6.IsWhole) (arg7 : Memref sig .tc .vmem S1024x1024 .f32) (harg7 : arg7.IsWhole) (x0 : Vec F S1024x1024 .f32) (x1 : Vec F S1024x1 .i32) (x2 : Vec F S1024x2048 .bf16) (x3 : Vec F S1024x1024 .bf16) (x4 : Vec F S1x2048 .f32) (x5 : Vec F S1x1024 .f32) (y : S1024x1024.Idx) :
    out0_A_6 (F := F) c i arg1 harg1 arg2 harg2 arg3 harg3 arg4 harg4 arg5 harg5 arg6 harg6 arg7 harg7 x0 x1 x2 x3 x4 x5 y = blockG x2 x3 x4 x5 x0 x1 y := by
  unfold out0_A_6
  rw [View.read_writes_eq_canon _ _ _ (cover0_A_6 c i arg1 harg1 arg2 harg2 arg3 harg3 arg4 harg4 arg5 harg5 arg6 harg6 arg7 harg7 x0 x1 x2 x3 x4 x5)]
  refine View.canon_apply_of_pieces (blockG x2 x3 x4 x5 x0 x1) _ ?_ y (cover0_A_6 c i arg1 harg1 arg2 harg2 arg3 harg3 arg4 harg4 arg5 harg5 arg6 harg6 arg7 harg7 x0 x1 x2 x3 x4 x5 y)
  intro p hp x
  unfold kernelRun0_A at hp
  dsimp only at hp
  obtain ⟨k, hk⟩ := mem_pb _ _ _ _ _ _ _ _ _ _ _ _ _ _ _ _ _ _ _ _ _ _ _ _ _ _ hp
  rw [tripL_eq] at hk
  obtain rfl := List.mem_singleton.mp hk
  show k0_pay1 _ _ _ _ _ _ x = blockG x2 x3 x4 x5 x0 x1 ((rowsRect k).emb x)
  unfold blockG
  rw [chunkOf_emb k x, localOf_emb k x]
  simp only [View.readAt_eq_ld, harg1.read_unread, harg2.read_unread, harg3.read_unread, harg4.read_unread,
    harg5.read_unread, harg6.read_unread, View.ld_unit_zero (S := S1024x2048) hz2, View.ld_unit_zero (S := S1024x1024) hz2,
    View.ld_unit_zero (S := S1x2048) hz2, View.ld_unit_zero (S := S1x1024) hz2]

end Cert.KernelIdeal.HandValue

end
-- ==== Proof.RowSpec.lean ====
/-
  One token's output row as a function of what the kernel body holds for it: the token's row of `x` (1024 entries), the
  transposed first-layer weights `w1t[k, j] = w1[j, k]` (1024 × 2048), the transposed second-layer weights restricted to
  the first 1024 hidden units, `w2t[h, d] = w2[d, h]` (1024 × 1024), the two bias rows, and the token's live width `wd`
  as a signed 32-bit word: hidden unit `h` is live when `h < wd` (signed compare of the words).
      z j     = (∑ k, xr k · w1t[k, j]) + b1r[0, j]
      act h   = (z h · σ(z h)) · z (1024 + h)
      out d   = (∑ h, (if h < wd then act h else 0) · w2t[h, d]) + b2r[0, d]
-/
import Idealize.ShloMosaic.PureOps.Ideal
import Idealize.ShloMosaic.Lib.ValueIdx
import proofs.«428732_j68298569941561_3_alg».proof.Proof.Spec

noncomputable section

open scoped BigOperators

namespace Cert.RowSpec

open Idealize.ShloMosaic Idealize.ShloMosaic.ValueIdx Cert.Spec

variable (w1t : (⟨2, ![1024, 2048]⟩ : Shape).Idx → EReal) (w2t : (⟨2, ![1024, 1024]⟩ : Shape).Idx → EReal)
  (b1r : (⟨2, ![1, 2048]⟩ : Shape).Idx → EReal) (b2r : (⟨2, ![1, 1024]⟩ : Shape).Idx → EReal)
  (xr : Fin 1024 → EReal) (wd : BitVec 32)

/-- Pre-activation `j` of the token. -/
def rowHid (j : Fin 2048) : EReal := (∑ k : Fin 1024, xr k * w1t (ix2 k j)) + b1r (ix2 (0 : Fin 1) j)

/-- Hidden unit `h` before masking. -/
def rowAct (h : Fin 1024) : EReal :=
  (rowHid w1t b1r xr (lo h) * Ideal.logistic (rowHid w1t b1r xr (lo h))) * rowHid w1t b1r xr (hi h)

/-- Entry `d` of the token's output row. -/
def rowOut (d : Fin 1024) : EReal :=
  (∑ h : Fin 1024, (if (BitVec.ofNat 32 h.val).slt wd = true then rowAct w1t b1r xr h else 0) * w2t (ix2 h d))
    + b2r (ix2 (0 : Fin 1) d)

end Cert.RowSpec

end
-- ==== Proof.KerPayload.lean ====
/-
  The kernel body's stored value, read at one entry: row `r` of a 256-row chunk, output column `d`.
-/
import proofs.«428732_j68298569941561_3_alg».proof.Proof.Gen.KernelIdeal.Skeleton
import proofs.«428732_j68298569941561_3_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadAt

open Idealize.ShloMosaic Idealize.ShloMosaic.ValueIdx Cert.KernelIdeal Cert.KernelIdeal.Gen Cert.Spec Cert.RowSpec

/-! ## The first product's operand indices, axis by axis -/

theorem lhsA_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhsA_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhsA_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhsA_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The first product into the zero accumulator, at entry `(r, j)`: row `r` of the left operand against column `j` of the
    right one, in the order left · right. -/
theorem matmulA_apply (x : FVec Ideal S256x1024 .bf16) (w : FVec Ideal S1024x2048 .bf16) (r : Fin 256) (j : Fin 2048) :
    matmul dot_S256x1024_S1024x2048_S256x2048_1_0_0_1_n_n none x w (constant (F := Ideal) S256x2048 .f32 0x00000000#32) (ix2 r j)
      = ∑ k : Fin 1024, x (ix2 r k) * w (ix2 k j) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 r j) ((contrEquiv1 dot_S256x1024_S1024x2048_S256x2048_1_0_0_1_n_n 1024 rfl rfl).symm k) = ix2 r k := funext fun a => Fin.ext (by
    match a with
    | ⟨0, _⟩ => exact lhsA_0 _ _
    | ⟨1, _⟩ => exact (lhsA_1 _ _).trans hk)
  have er : dot_S256x1024_S1024x2048_S256x2048_1_0_0_1_n_n.rhsIdx (ix2 r j) ((contrEquiv1 dot_S256x1024_S1024x2048_S256x2048_1_0_0_1_n_n 1024 rfl rfl).symm k) = ix2 k j := funext fun a => Fin.ext (by
    match a with
    | ⟨0, _⟩ => exact (rhsA_0 _ _).trans hk
    | ⟨1, _⟩ => exact rhsA_1 _ _)
  rw [el, er]

/-! ## The second product's operand indices, axis by axis -/

theorem lhsB_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhsB_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhsB_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhsB_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The second product into the zero accumulator, at entry `(r, j)`: row `r` of the left operand against column `j` of the
    right one, in the order left · right. -/
theorem matmulB_apply (x : FVec Ideal S256x1024 .bf16) (w : FVec Ideal S1024x1024 .bf16) (r : Fin 256) (j : Fin 1024) :
    matmul dot_S256x1024_S1024x1024_S256x1024_1_0_0_1_n_n none x w (constant (F := Ideal) S256x1024 .f32 0x00000000#32) (ix2 r j)
      = ∑ k : Fin 1024, x (ix2 r k) * w (ix2 k j) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r j) ((contrEquiv1 dot_S256x1024_S1024x1024_S256x1024_1_0_0_1_n_n 1024 rfl rfl).symm k) = ix2 r k := funext fun a => Fin.ext (by
    match a with
    | ⟨0, _⟩ => exact lhsB_0 _ _
    | ⟨1, _⟩ => exact (lhsB_1 _ _).trans hk)
  have er : dot_S256x1024_S1024x1024_S256x1024_1_0_0_1_n_n.rhsIdx (ix2 r j) ((contrEquiv1 dot_S256x1024_S1024x1024_S256x1024_1_0_0_1_n_n 1024 rfl rfl).symm k) = ix2 k j := funext fun a => Fin.ext (by
    match a with
    | ⟨0, _⟩ => exact (rhsB_0 _ _).trans hk
    | ⟨1, _⟩ => exact rhsB_1 _ _)
  rw [el, er]

/-! ## The layout operations the body uses, at an entry -/

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column counter along axis 1 reads, at `(r, h)`, the word of `h`. -/
theorem iota_at (hi : S256x1024.Iotas .tc 32 [1]) (r : Fin 256) (h : Fin 1024) :
    iota .tc S256x1024 32 [1] hi (ix2 r h) = BitVec.ofNat 32 h.val :=
  iota_single_apply .tc S256x1024 32 1 hi (ix2 r h)

/-- A choice on a signed "less than" of two words is the `if` on that comparison. -/
theorem select_slt {α : Type} (a b : BitVec 32) (x y : α) :
    Scalar.select (IntOp.cmpi .slt a b) x y = if a.slt b = true then x else y := by
  unfold Scalar.select IntOp.cmpi
  cases a.slt b <;> rfl

/-- A comparison of two word vectors at an entry compares the entries. -/
theorem cmpi_at {s : Shape} {w : ℕ} (p : CmpIPredicate) (x y : IVec s w) (i : s.Idx) :
    cmpi p x y i = IntOp.cmpi p (x i) (y i) := rfl

/-- The logistic function of a vector at an entry is the logistic function of the entry. -/
theorem logistic_at {s : Shape} {φ : FTy} (x : FVec Ideal s φ) (i : s.Idx) : logistic x i = Ideal.logistic (x i) := rfl

/-- The zero the dead units are set to is the extended real `0`. -/
theorem zero_word : (FloatOps.ofBits (F := Ideal) .f32 0x00000000#32) = (0 : EReal) := Ideal.ofBits_zero_f32

/-! ## The pre-activations -/

/-- Entry `(r, j)` of the first product plus the broadcast bias row is pre-activation `j` of row `r`. -/
theorem hid_at (v0 : FVec Ideal S1024x2048 .bf16) (v4 : FVec Ideal S1x2048 .f32) (v13 : FVec Ideal S256x1024 .f32)
    (hl : FTy.bf16.bits < FTy.f32.bits) (hb : S1x2048.Broadcasts S256x2048) (r : Fin 256) (j : Fin 2048) :
    addf (matmul dot_S256x1024_S1024x2048_S256x2048_1_0_0_1_n_n none (truncf FTy.bf16 v13 hl) v0
        (constant (F := Ideal) S256x2048 FTy.f32 0x00000000#32)) (broadcastTo S256x2048 v4 hb) (ix2 r j)
      = rowHid v0 v4 (fun k => v13 (ix2 r k)) j := by
  rw [addf_apply, matmulA_apply, broadcastTo_1b_ab_apply]
  rfl

/-! ## The stored value at an entry -/

/-- Entry `(r, d)` of the chunk's stored value is the row function of row `r` of the loaded `x` chunk, the weights and
    biases the body loaded whole, and the row's live width. -/
theorem pay_at (v0 : Vec Ideal S1024x2048 .bf16) (v2 : Vec Ideal S1024x1024 .bf16) (v4 : Vec Ideal S1x2048 .f32)
    (v6 : Vec Ideal S1x1024 .f32) (v13 : Vec Ideal S256x1024 .f32) (v22 : Vec Ideal S256x1 .i32) (r : Fin 256) (d : Fin 1024) :
    k0_pay1 (F := Ideal) v0 v2 v4 v6 v13 v22 (ix2 r d)
      = rowOut v0 v2 v4 v6 (fun k => v13 (ix2 r k)) (v22 (ix2 r (0 : Fin 1))) d := by
  unfold k0_pay1
  simp only [shapeCast_self]
  rw [addf_apply, matmulB_apply, broadcastTo_1b_ab_apply]
  unfold rowOut
  refine congrArg (· + v6 (ix2 (0 : Fin 1) d)) (Finset.sum_congr rfl fun h _ => ?_)
  refine congrArg (· * v2 (ix2 h d)) ?_
  rw [truncf_apply, select_apply, cmpi_at, iota_at, broadcastTo_a1_ab_apply, select_slt, broadcast_apply, zero_word,
    mulf_apply, mulf_apply, logistic_at,
    slice2_axis1_apply 0 _ _ r h (lo h) (Nat.zero_add _).symm, slice2_axis1_apply 1024 _ _ r h (hi h) rfl,
    hid_at, hid_at]
  rfl

end Cert.KernelIdeal.PayloadAt

end
-- ==== Proof.KerFinal.lean ====
/-
  From one grid point's block to the whole output array.

  Grid point t works on rows [1024 t, 1024 t + 1024) of the 32768-row arrays: its `x` block and width block are those
  rows, the weight and bias windows are the whole arrays at every point, and the block it writes back is those rows of
  the output.  Entry (q, d) of the block the body leaves is the row function of row q of the `x` block and of the
  width at row q.  So entry (n, d) of the output array after the run is the row function of row n of the reshaped `x`
  and of the width at n; the 32 blocks tile the array.
-/
import proofs.«428732_j68298569941561_3_alg».proof.Proof.KerBlock
import proofs.«428732_j68298569941561_3_alg».proof.Proof.KerPayload

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec Cert.RowSpec

/-- Entry `(q, d)` of the block the body leaves: the row function of row `q` of the `x` block `x0` and the width at
    row `q` of the width block `x1`, with the weights and biases the body holds. -/
theorem blockG_at (x0 : Vec Ideal S1024x1024 .f32) (x1 : Vec Ideal S1024x1 .i32) (x2 : Vec Ideal S1024x2048 .bf16)
    (x3 : Vec Ideal S1024x1024 .bf16) (x4 : Vec Ideal S1x2048 .f32) (x5 : Vec Ideal S1x1024 .f32) (q : Fin 1024) (d : Fin 1024) :
    blockG (F := Ideal) x2 x3 x4 x5 x0 x1 (ix2 q d)
      = rowOut x2 x3 x4 x5 (fun k => x0 (ix2 q k)) (x1 (ix2 q (0 : Fin 1))) d := by
  unfold blockG
  have hl : localOf (ix2 q d) = ix2 (⟨q.val % 256, Nat.mod_lt _ (by decide)⟩ : Fin 256) d := rfl
  rw [hl, Cert.KernelIdeal.PayloadAt.pay_at]
  have hq : q.val < 1024 := q.isLt
  have hrow : ∀ k : Fin 1024, View.ld x0 (rowsRect (chunkOf (ix2 q d))) (ix2 (⟨q.val % 256, Nat.mod_lt _ (by decide)⟩ : Fin 256) k) = x0 (ix2 q k) := by
    intro k
    show x0 ((rowsRect (chunkOf (ix2 q d))).idx (ix2 (⟨q.val % 256, Nat.mod_lt _ (by decide)⟩ : Fin 256) k)) = x0 (ix2 q k)
    congr 1
    funext a
    apply Fin.ext
    match a with
    | ⟨0, _⟩ =>
      show k0_off1 (chunkOf (ix2 q d)) 0 + 1 * (q.val % 256) = q.val
      rw [k0_off1_eq]
      show 256 * (q.val / 256) + 1 * (q.val % 256) = q.val
      omega
    | ⟨1, _⟩ =>
      show k0_off1 (chunkOf (ix2 q d)) 1 + 1 * k.val = k.val
      rw [k0_off1_eq]
      show 0 + 1 * k.val = k.val
      omega
  have hwid : View.ld x1 (widRect (chunkOf (ix2 q d))) (ix2 (⟨q.val % 256, Nat.mod_lt _ (by decide)⟩ : Fin 256) (0 : Fin 1)) = x1 (ix2 q (0 : Fin 1)) := by
    show x1 ((widRect (chunkOf (ix2 q d))).idx (ix2 (⟨q.val % 256, Nat.mod_lt _ (by decide)⟩ : Fin 256) (0 : Fin 1))) = x1 (ix2 q (0 : Fin 1))
    congr 1
    funext a
    apply Fin.ext
    match a with
    | ⟨0, _⟩ =>
      show k0_off2 (chunkOf (ix2 q d)) 0 + 1 * (q.val % 256) = q.val
      rw [k0_off2_eq]
      show 256 * (q.val / 256) + 1 * (q.val % 256) = q.val
      omega
    | ⟨1, _⟩ =>
      show k0_off2 (chunkOf (ix2 q d)) 1 + 1 * 0 = 0
      rw [k0_off2_eq]
      rfl
  rw [hwid]
  congr 1
  funext k
  exact hrow k

variable (m : (ℓ : Loc nD τ sig) → Buf (Elt Ideal) ℓ)

/-- The grid has 32 points. -/
theorem t_lt (t : Fin cfg0.N) : t.val < 32 := lt_of_lt_of_eq t.isLt N_0

/-- The printed index maps, decided over the grid: the `x`, width and output windows take block `t` of the rows and
    the one block of the columns; the weight and bias windows take their one block at every point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The six input blocks at point `t`, each at its literal type. -/
abbrev xblk (c : Dev nD) (t : Fin cfg0.N) : Vec Ideal S1024x1024 .f32 := iblk m c 0 t
abbrev wblk (c : Dev nD) (t : Fin cfg0.N) : Vec Ideal S1024x1 .i32 := iblk m c 1 t
abbrev w1blk (c : Dev nD) (t : Fin cfg0.N) : Vec Ideal S1024x2048 .bf16 := iblk m c 2 t
abbrev w2blk (c : Dev nD) (t : Fin cfg0.N) : Vec Ideal S1024x1024 .bf16 := iblk m c 3 t
abbrev b1blk (c : Dev nD) (t : Fin cfg0.N) : Vec Ideal S1x2048 .f32 := iblk m c 4 t
abbrev b2blk (c : Dev nD) (t : Fin cfg0.N) : Vec Ideal S1x1024 .f32 := iblk m c 5 t

/-- Row `q` of point `t`'s block is row `1024 t + q` of the array. -/
abbrev rowOf (t : Fin cfg0.N) (q : Fin 1024) : Fin 32768 := ⟨1024 * t.val + q.val, by have := t_lt t; omega⟩

theorem xblk_at (c : Dev nD) (t : Fin cfg0.N) (q : Fin 1024) (k : Fin 1024) :
    xblk m c t (ix2 q k) = V m c main_v0 (ix2 (rowOf t q) k) := by
  show V m c main_v0 (((cfg0.win 0).blk t).view.emb (ix2 q k)) = V m c main_v0 (ix2 (rowOf t q) k)
  congr 1
  funext a
  apply Fin.ext
  obtain ⟨e0, e1, -⟩ := idx_facts t
  match a with
  | ⟨0, _⟩ => show win0_0.index t (0 : Fin 2) * 1024 + 1 * q.val = 1024 * t.val + q.val; omega
  | ⟨1, _⟩ => show win0_0.index t (1 : Fin 2) * 1024 + 1 * k.val = k.val; omega

theorem wblk_at (c : Dev nD) (t : Fin cfg0.N) (q : Fin 1024) :
    wblk m c t (ix2 q (0 : Fin 1)) = V m c main_v6 (ix2 (rowOf t q) (0 : Fin 1)) := by
  show V m c main_v6 (((cfg0.win 1).blk t).view.emb (ix2 q (0 : Fin 1))) = V m c main_v6 (ix2 (rowOf t q) (0 : Fin 1))
  congr 1
  funext a
  apply Fin.ext
  obtain ⟨-, -, e2, e3, -⟩ := idx_facts t
  match a with
  | ⟨0, _⟩ => show win0_1.index t (0 : Fin 2) * 1024 + 1 * q.val = 1024 * t.val + q.val; omega
  | ⟨1, _⟩ => show win0_1.index t (1 : Fin 2) * 1 + 1 * 0 = 0; omega

theorem w1blk_eq (c : Dev nD) (t : Fin cfg0.N) : w1blk m c t = V m c main_v8 := by
  funext y
  show V m c main_v8 (((cfg0.win 2).blk t).view.emb y) = V m c main_v8 y
  congr 1
  funext a
  apply Fin.ext
  obtain ⟨-, -, -, -, e4, e5, -⟩ := idx_facts t
  match a with
  | ⟨0, _⟩ => show win0_2.index t (0 : Fin 2) * 1024 + 1 * (y 0).val = (y 0).val; omega
  | ⟨1, _⟩ => show win0_2.index t (1 : Fin 2) * 2048 + 1 * (y 1).val = (y 1).val; omega

theorem w2blk_eq (c : Dev nD) (t : Fin cfg0.N) : w2blk m c t = V m c main_v11 := by
  funext y
  show V m c main_v11 (((cfg0.win 3).blk t).view.emb y) = V m c main_v11 y
  congr 1
  funext a
  apply Fin.ext
  obtain ⟨-, -, -, -, -, -, e6, e7, -⟩ := idx_facts t
  match a with
  | ⟨0, _⟩ => show win0_3.index t (0 : Fin 2) * 1024 + 1 * (y 0).val = (y 0).val; omega
  | ⟨1, _⟩ => show win0_3.index t (1 : Fin 2) * 1024 + 1 * (y 1).val = (y 1).val; omega

theorem b1blk_eq (c : Dev nD) (t : Fin cfg0.N) : b1blk m c t = V m c main_v12 := by
  funext y
  show V m c main_v12 (((cfg0.win 4).blk t).view.emb y) = V m c main_v12 y
  congr 1
  funext a
  apply Fin.ext
  obtain ⟨-, -, -, -, -, -, -, -, e8, e9, -⟩ := idx_facts t
  match a with
  | ⟨0, _⟩ => show win0_4.index t (0 : Fin 2) * 1 + 1 * (y 0).val = (y 0).val; omega
  | ⟨1, _⟩ => show win0_4.index t (1 : Fin 2) * 2048 + 1 * (y 1).val = (y 1).val; omega

theorem b2blk_eq (c : Dev nD) (t : Fin cfg0.N) : b2blk m c t = V m c main_v13 := by
  funext y
  show V m c main_v13 (((cfg0.win 5).blk t).view.emb y) = V m c main_v13 y
  congr 1
  funext a
  apply Fin.ext
  obtain ⟨-, -, -, -, -, -, -, -, -, -, e10, e11, -⟩ := idx_facts t
  match a with
  | ⟨0, _⟩ => show win0_5.index t (0 : Fin 2) * 1 + 1 * (y 0).val = (y 0).val; omega
  | ⟨1, _⟩ => show win0_5.index t (1 : Fin 2) * 1024 + 1 * (y 1).val = (y 1).val; omega

/-- An entry's row and column, as numbers of the literal ranges. -/
abbrev rowIx (i : S32768x1024.Idx) : Fin 32768 := ⟨(i 0).val, idx2_lt0 i⟩
abbrev colIx (i : S32768x1024.Idx) : Fin 1024 := ⟨(i 1).val, idx2_lt1 i⟩

/-- THE OUTPUT ARRAY, entry by entry: the row function of the entry's row of the reshaped `x` and the width at that row,
    with the weights and biases as the region finds them. -/
def Garr (c : Dev nD) : S32768x1024.Idx → EReal := fun i =>
  rowOut (V m c main_v8) (V m c main_v11) (V m c main_v12) (V m c main_v13)
    (fun k => V m c main_v0 (ix2 (rowIx i) k)) (V m c main_v6 (ix2 (rowIx i) (0 : Fin 1))) (colIx i)

/-- Row and column, in the array, of entry `(q, d)` of point `t`'s output block. -/
theorem rowIx_emb (t : Fin cfg0.N) (q d : Fin 1024) : rowIx (((cfg0.win 6).blk t).view.emb (ix2 q d)) = rowOf t q := by
  apply Fin.ext
  obtain ⟨-, -, -, -, -, -, -, -, -, -, -, -, e12, e13⟩ := idx_facts t
  show win0_6.index t (0 : Fin 2) * 1024 + 1 * q.val = 1024 * t.val + q.val
  omega
theorem colIx_emb (t : Fin cfg0.N) (q d : Fin 1024) : colIx (((cfg0.win 6).blk t).view.emb (ix2 q d)) = d := by
  apply Fin.ext
  obtain ⟨-, -, -, -, -, -, -, -, -, -, -, -, e12, e13⟩ := idx_facts t
  show win0_6.index t (1 : Fin 2) * 1024 + 1 * d.val = d.val
  omega

/-- The row function of point `t`'s blocks at row `q` is the row function of the arrays at row `1024 t + q`. -/
theorem rowOut_blocks (c : Dev nD) (t : Fin cfg0.N) (q d : Fin 1024) :
    rowOut (w1blk m c t) (w2blk m c t) (b1blk m c t) (b2blk m c t) (fun k => xblk m c t (ix2 q k)) (wblk m c t (ix2 q (0 : Fin 1))) d
      = rowOut (V m c main_v8) (V m c main_v11) (V m c main_v12) (V m c main_v13)
          (fun k => V m c main_v0 (ix2 (rowOf t q) k)) (V m c main_v6 (ix2 (rowOf t q) (0 : Fin 1))) d := by
  have h1 : (fun k => xblk m c t (ix2 q k)) = fun k => V m c main_v0 (ix2 (rowOf t q) k) := funext fun k => xblk_at m c t q k
  rw [w1blk_eq m c t, w2blk_eq m c t, b1blk_eq m c t, b2blk_eq m c t, wblk_at m c t q, h1]

/-- Entry `j` of what point `t` leaves is the array function at `j`'s place in the array. -/
theorem flushed_at (c : Dev nD) (t : Fin cfg0.N) (j : S1024x1024.Idx) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) j
      = Garr m c (((cfg0.win 6).blk t).view.emb j) := by
  obtain ⟨q, d, rfl⟩ : ∃ (q : Fin 1024) (d : Fin 1024), j = ix2 q d := ⟨j 0, j 1, eq_ix2 j⟩
  refine (out_block (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (xblk m c t) (wblk m c t) (w1blk m c t) (w2blk m c t) (b1blk m c t) (b2blk m c t) (ix2 q d)).trans ?_
  rw [blockG_at]
  refine (rowOut_blocks m c t q d).trans ?_
  unfold Garr
  rw [rowIx_emb t q d, colIx_emb t q d]

/-- WHAT POINT `t` WRITES BACK is block `t` of the array function. -/
theorem flushed_eq (c : Dev nD) (t : Fin cfg0.N) :
    (dats m 0 c).flushed 6 t = ((cfg0.win 6).blk t).view.read (Elt Ideal) (Garr m c) := by
  show (cfg0.win 6).cut (grid0.coords t) ((dats m 0 c).after 6 t) = _
  rw [after0_6]
  unfold outsAt0
  funext j
  exact flushed_at m c t j

/-- An entry of the array is in point `t`'s block iff its row is among the point's 1024 rows. -/
theorem mem_blk (t : Fin cfg0.N) (i : S32768x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v14).slice (win0_6.rect t)).set ↔ _
  rw [View.set_slice_whole, Rect.mem_set_unit]
  exact Iff.rfl

/-- The 32 blocks tile the array: entry `i` is in the block of point `row / 1024`. -/
theorem cover (i : S32768x1024.Idx) :
    ∃ t : Fin cfg0.N, (cfg0.win 6).flush t = true ∧ i ∈ ((cfg0.win 6).blk t).view.set := by
  have hi0 : (i 0).val < 32768 := idx2_lt0 i
  have hi1 : (i 1).val < 1024 := idx2_lt1 i
  let t : Fin cfg0.N := ⟨(i 0).val / 1024, lt_of_lt_of_eq (by omega : (i 0).val / 1024 < 32) N_0.symm⟩
  refine ⟨t, flush0_6 t, ?_⟩
  rw [mem_blk]
  obtain ⟨-, -, -, -, -, -, -, -, -, -, -, -, e12, e13⟩ := idx_facts t
  have ht : t.val = (i 0).val / 1024 := rfl
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- THE OUTPUT ARRAY after the run is the array function. -/
theorem final (c : Dev nD) : (dats m 0 c).arrAt 6 cfg0.N = Garr m c :=
  (dats m 0 c).arrAt_eq_of_cover 6 (Garr m c) (fun t _ => flushed_eq m c t) (cover)

end Cert.KernelIdeal.HandValue

end
-- ==== Proof.Width.lean ====
/-
  The live width as a 32-bit word: for an expert id e in {0, 1, 2, 3} the word 1024 shifted right by 3 − e is
  128 · 2^e, and a hidden unit's position compares below that word exactly when the unit is live.
-/
import Idealize.ShloMosaic.PureOps.Ideal
import proofs.«428732_j68298569941561_3_alg».proof.Proof.Spec

namespace Cert.Width

open Idealize.ShloMosaic Cert.Spec

/-- A natural below 2³¹, as a 32-bit word, reads back as itself, signed. -/
theorem toInt_ofNat_of_lt (a : Nat) (ha : a < 2 ^ 31) : (BitVec.ofNat 32 a).toInt = (a : Int) := by
  have ea : (BitVec.ofNat 32 a).toNat = a := by rw [BitVec.toNat_ofNat]; omega
  rw [BitVec.toInt_eq_toNat_of_lt (by omega), ea]

/-- on words that are small naturals the signed compare is the compare of the naturals -/
theorem slt_ofNat_iff (a n : Nat) (ha : a < 2 ^ 31) (hn : n < 2 ^ 31) :
    (BitVec.ofNat 32 a).slt (BitVec.ofNat 32 n) = true ↔ a < n := by
  rw [BitVec.slt_iff_toInt_lt, toInt_ofNat_of_lt a ha, toInt_ofNat_of_lt n hn]
  omega

/-- the live width the kernel's program computes from an expert id: 1024 shifted right (arithmetically) by 3 minus the
    id clamped to [0, 3] -/
def kerWidth (e : BitVec 32) : BitVec 32 :=
  IntOp.shrsi .host 1024#32 (IntOp.subi 3#32 (IntOp.minsi 3#32 (IntOp.maxsi 0#32 e)))

/-- For an id in range the clamp is the identity and the shift amount 3 − e is below the width: the word is 1024 / 2^(3 − e). -/
theorem kerWidth_eq {e : BitVec 32} (he : InRange e) : kerWidth e = BitVec.ofNat 32 (128 * 2 ^ e.toNat) := by
  rcases he with rfl | rfl | rfl | rfl <;> decide

/-- The width 128 · 2^e of an id in range is at most 1024. -/
theorem width_lt {e : BitVec 32} (he : InRange e) : 128 * 2 ^ e.toNat < 2 ^ 31 := by
  rcases he with rfl | rfl | rfl | rfl <;> decide

/-- A hidden unit's position compares (signed) below the kernel's width word exactly when the unit is live. -/
theorem slt_kerWidth_iff {e : BitVec 32} (he : InRange e) (h : Fin 1024) :
    (BitVec.ofNat 32 h.val).slt (kerWidth e) = true ↔ live e h := by
  rw [kerWidth_eq he]
  unfold live
  exact slt_ofNat_iff h.val _ (by have := h.isLt; omega) (width_lt he)

/-- the same for any word equal to 128·2^e (the reference's width word will be shown to be that) -/
theorem slt_width_iff {e w : BitVec 32} (he : InRange e) (hw : w = BitVec.ofNat 32 (128 * 2 ^ e.toNat)) (h : Fin 1024) :
    (BitVec.ofNat 32 h.val).slt w = true ↔ live e h := by
  subst hw
  unfold live
  exact slt_ofNat_iff h.val _ (by have := h.isLt; omega) (width_lt he)

end Cert.Width
-- ==== Proof.KerHost.lean ====
/-
  The arrays the kernel's region finds, read at one entry, in terms of the program's arguments: the host lines before
  the region reshape `x` to 32768 × 1024 (token n = 4096·b + s), turn the expert ids into live widths
  (1024 shifted right by 3 minus the id clamped to [0, 3]) as a 32768 × 1 column, transpose the first-layer weights,
  slice and transpose the second-layer weights, and reshape the two biases to rows.  Changes of float format are the
  identity on the extended reals.
-/
import proofs.«428732_j68298569941561_3_alg».proof.Proof.Gen.KernelIdeal.Frame
import proofs.«428732_j68298569941561_3_alg».proof.Proof.Spec
import proofs.«428732_j68298569941561_3_alg».proof.Proof.Width
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HandValue

open Idealize.ShloMosaic Idealize.ShloMosaic.TcCoe Idealize.ShloMosaic.ValueIdx
open Idealize.SL Idealize.SL.Sem
open Cert.KernelIdeal Cert.KernelIdeal.Gen Cert.Spec

/-- Token `(b, s)` as a row of the 32768-row arrays. -/
abbrev tok (b : Fin 8) (s : Fin 4096) : Fin 32768 := ⟨4096 * b.val + s.val, by omega⟩

variable (m : (ℓ : Loc nD τ sig) → Buf (Elt Ideal) ℓ)

/-! ## Each array as the term of the host lines that wrote it -/

/-- The reshaped first argument: the 8 × 4096 × 1024 array read in row-major order as 32768 × 1024. -/
theorem V_v0_eq (c : Dev nD) :
    (V m c main_v0 : S32768x1024.Idx → EReal)
      = shapeCast S32768x1024 (m ((c : Thread nD τ).loc main_arg0)) shapeCasts_S8x4096x1024_S32768x1024 := by
  dsimp only [Gen.V, Gen.V0]
  simp only [Gen.hostOps0, Gen.hostOps0_1, Gen.hostOps0_2, List.flatten_cons, List.flatten_nil, List.append_nil, List.cons_append, List.nil_append]
  after_results
  rfl

/-- The width column: 1024 shifted right by 3 minus the id clamped to [0, 3], entry by entry, reshaped to a column. -/
theorem V_v6_eq (c : Dev nD) :
    (V m c main_v6 : S32768x1.Idx → BitVec 32) = shapeCast S32768x1
      (Host.shrsi (broadcastInDim S8x4096 ![] bcast_S_S8x4096 (constantI S_ 32 1024#32))
        (subi (broadcastInDim S8x4096 ![] bcast_S_S8x4096 (constantI S_ 32 3#32))
          (minsi (broadcastInDim S8x4096 ![] bcast_S_S8x4096 (constantI S_ 32 3#32))
            (maxsi (broadcastInDim S8x4096 ![] bcast_S_S8x4096 (constantI S_ 32 0#32)) (m ((c : Thread nD τ).loc main_arg1))))))
      shapeCasts_S8x4096_S32768x1 := by
  dsimp only [Gen.V, Gen.V0]
  simp only [Gen.hostOps0, Gen.hostOps0_1, Gen.hostOps0_2, List.flatten_cons, List.flatten_nil, List.append_nil, List.cons_append, List.nil_append]
  after_results
  rfl

/-- The first-layer weights: transposed, then narrowed. -/
theorem V_v8_eq (c : Dev nD) :
    (V m c main_v8 : S1024x2048.Idx → EReal)
      = truncf (F := Ideal) .bf16 (transpose S1024x2048 [1, 0] (m ((c : Thread nD τ).loc main_arg2)) transposes_S2048x1024_S1024x2048_1_0)
          bitsLt_bf16_f32 := by
  dsimp only [Gen.V, Gen.V0]
  simp only [Gen.hostOps0, Gen.hostOps0_1, Gen.hostOps0_2, List.flatten_cons, List.flatten_nil, List.append_nil, List.cons_append, List.nil_append]
  after_results

/-- The second-layer weights: the first 1024 columns, transposed, then narrowed. -/
theorem V_v11_eq (c : Dev nD) :
    (V m c main_v11 : S1024x1024.Idx → EReal)
      = truncf (F := Ideal) .bf16 (transpose S1024x1024 [1, 0]
          (extractStridedSlice S1024x1024 ![0, 0] (m ((c : Thread nD τ).loc main_arg4)) slices_S1024x2048_S1024x1024_0_0)
          transposes_S1024x1024_S1024x1024_1_0) bitsLt_bf16_f32 := by
  dsimp only [Gen.V, Gen.V0]
  simp only [Gen.hostOps0, Gen.hostOps0_1, Gen.hostOps0_2, List.flatten_cons, List.flatten_nil, List.append_nil, List.cons_append, List.nil_append]
  after_results

/-- The two biases: each vector read as a one-row array. -/
theorem V_v12_eq (c : Dev nD) :
    (V m c main_v12 : S1x2048.Idx → EReal) = shapeCast S1x2048 (m ((c : Thread nD τ).loc main_arg3)) shapeCasts_S2048_S1x2048 := by
  dsimp only [Gen.V, Gen.V0]
  simp only [Gen.hostOps0, Gen.hostOps0_1, Gen.hostOps0_2, List.flatten_cons, List.flatten_nil, List.append_nil, List.cons_append, List.nil_append]
  after_results
  rfl
theorem V_v13_eq (c : Dev nD) :
    (V m c main_v13 : S1x1024.Idx → EReal) = shapeCast S1x1024 (m ((c : Thread nD τ).loc main_arg5)) shapeCasts_S1024_S1x1024 := by
  dsimp only [Gen.V, Gen.V0]
  simp only [Gen.hostOps0, Gen.hostOps0_1, Gen.hostOps0_2, List.flatten_cons, List.flatten_nil, List.append_nil, List.cons_append, List.nil_append]
  after_results
  rfl

/-! ## The arrays read at one entry -/

/-- Row `tok b s` of the reshaped `x` is row `(b, s)` of `x`. -/
theorem V_v0_at (c : Dev nD) (b : Fin 8) (s : Fin 4096) (k : Fin 1024) :
    V m c main_v0 (ix2 (tok b s) k) = m ((c : Thread nD τ).loc main_arg0) (ix3 b s k) := by
  refine (congrFun (V_v0_eq m c) _).trans ?_
  refine shapeCast_apply _ _ _ (ix3 b s k) ?_
  rw [Shape.rowMajor_val_three, Shape.rowMajor_val_two]
  show (b.val * 4096 + s.val) * 1024 + k.val = (4096 * b.val + s.val) * 1024 + k.val
  omega

/-- The width column at token `(b, s)` is the kernel's width word of the token's expert id. -/
theorem V_v6_at (c : Dev nD) (b : Fin 8) (s : Fin 4096) :
    V m c main_v6 (ix2 (tok b s) (0 : Fin 1)) = Cert.Width.kerWidth (m ((c : Thread nD τ).loc main_arg1) (ix2 b s)) := by
  refine (congrFun (V_v6_eq m c) _).trans ?_
  refine (shapeCast_apply _ _ _ (ix2 b s) ?_).trans ?_
  · rw [Shape.rowMajor_val_two, Shape.rowMajor_val_two]
    show b.val * 4096 + s.val = (4096 * b.val + s.val) * 1 + 0
    omega
  · rfl

/-- The first-layer weights arrive transposed. -/
theorem V_v8_at (c : Dev nD) (k : Fin 1024) (j : Fin 2048) :
    V m c main_v8 (ix2 k j) = m ((c : Thread nD τ).loc main_arg2) (ix2 j k) := by
  refine (congrFun (V_v8_eq m c) _).trans ?_
  rw [truncf_apply]
  refine transpose_apply _ _ _ _ (ix2 j k) ?_
  intro a
  match a with
  | ⟨0, _⟩ => rfl
  | ⟨1, _⟩ => rfl

/-- The second-layer weights arrive restricted to the first 1024 hidden units, transposed. -/
theorem V_v11_at (c : Dev nD) (h : Fin 1024) (d : Fin 1024) :
    V m c main_v11 (ix2 h d) = m ((c : Thread nD τ).loc main_arg4) (ix2 d (lo h)) := by
  refine (congrFun (V_v11_eq m c) _).trans ?_
  rw [truncf_apply]
  refine (transpose_apply _ _ _ _ (ix2 d h) ?_).trans ?_
  · intro a
    match a with
    | ⟨0, _⟩ => rfl
    | ⟨1, _⟩ => rfl
  · refine extractStridedSlice_apply _ _ _ _ (ix2 d (lo h)) ?_
    intro a
    match a with
    | ⟨0, _⟩ => show d.val = 0 + d.val; omega
    | ⟨1, _⟩ => show h.val = 0 + h.val; omega

/-- The biases arrive as rows. -/
theorem V_v12_at (c : Dev nD) (j : Fin 2048) :
    V m c main_v12 (ix2 (0 : Fin 1) j) = m ((c : Thread nD τ).loc main_arg3) (ix1 j) := by
  refine (congrFun (V_v12_eq m c) _).trans ?_
  refine shapeCast_apply _ _ _ (ix1 j) ?_
  rw [Shape.rowMajor_val_one, Shape.rowMajor_val_two]
  show j.val = 0 * 2048 + j.val
  omega
theorem V_v13_at (c : Dev nD) (d : Fin 1024) :
    V m c main_v13 (ix2 (0 : Fin 1) d) = m ((c : Thread nD τ).loc main_arg5) (ix1 d) := by
  refine (congrFun (V_v13_eq m c) _).trans ?_
  refine shapeCast_apply _ _ _ (ix1 d) ?_
  rw [Shape.rowMajor_val_one, Shape.rowMajor_val_two]
  show d.val = 0 * 1024 + d.val
  omega

end Cert.KernelIdeal.HandValue

end
-- ==== Proof.RowBridge.lean ====
/-
  One token's row function, fed the program's arrays in the layout the kernel holds them, is the specification's entry.
-/
import proofs.«428732_j68298569941561_3_alg».proof.Proof.RowSpec
import proofs.«428732_j68298569941561_3_alg».proof.Proof.Width

noncomputable section

open scoped BigOperators

namespace Cert.RowBridge

open Idealize.ShloMosaic Idealize.ShloMosaic.ValueIdx Cert.Spec Cert.RowSpec

/-- Pre-activation `j` of the row function is the specification's: the products agree term by term (the row of `x`, the
    transposed weights), and so do the biases. -/
theorem rowHid_eq_hid (x : SX.Idx → EReal) (w1 : SW1.Idx → EReal) (b1 : SB1.Idx → EReal)
    (w1t : (⟨2, ![1024, 2048]⟩ : Shape).Idx → EReal) (b1r : (⟨2, ![1, 2048]⟩ : Shape).Idx → EReal)
    (xr : Fin 1024 → EReal) (b : Fin 8) (s : Fin 4096)
    (hw1 : ∀ (k : Fin 1024) (j : Fin 2048), w1t (ix2 k j) = w1 (ix2 j k))
    (hb1 : ∀ j : Fin 2048, b1r (ix2 (0 : Fin 1) j) = b1 (ix1 j))
    (hx : ∀ k : Fin 1024, xr k = x (ix3 b s k)) (j : Fin 2048) :
    rowHid w1t b1r xr j = hid x w1 b1 b s j := by
  unfold rowHid hid
  rw [hb1 j]
  refine congrArg (· + b1 (ix1 j)) (Finset.sum_congr rfl fun k _ => ?_)
  rw [hx k, hw1 k j]

/-- Hence hidden unit `h` before masking is the specification's. -/
theorem rowAct_eq_act (x : SX.Idx → EReal) (w1 : SW1.Idx → EReal) (b1 : SB1.Idx → EReal)
    (w1t : (⟨2, ![1024, 2048]⟩ : Shape).Idx → EReal) (b1r : (⟨2, ![1, 2048]⟩ : Shape).Idx → EReal)
    (xr : Fin 1024 → EReal) (b : Fin 8) (s : Fin 4096)
    (hw1 : ∀ (k : Fin 1024) (j : Fin 2048), w1t (ix2 k j) = w1 (ix2 j k))
    (hb1 : ∀ j : Fin 2048, b1r (ix2 (0 : Fin 1) j) = b1 (ix1 j))
    (hx : ∀ k : Fin 1024, xr k = x (ix3 b s k)) (h : Fin 1024) :
    rowAct w1t b1r xr h = act x w1 b1 b s h := by
  unfold rowAct act
  rw [rowHid_eq_hid x w1 b1 w1t b1r xr b s hw1 hb1 hx (lo h), rowHid_eq_hid x w1 b1 w1t b1r xr b s hw1 hb1 hx (hi h)]

/-- With `w1t[k, j] = w1[j, k]`, `w2t[h, d] = w2[d, h]`, the biases as rows, the token's row of `x` and the kernel's width
    word of an admitted expert id, the row function at `d` is output entry `(b, s, d)`: the sums agree term by term, and
    the signed compare of `h` with the width word is the unit being live. -/
theorem rowOut_eq_outAt (x : SX.Idx → EReal) (e : SE.Idx → BitVec 32) (w1 : SW1.Idx → EReal) (b1 : SB1.Idx → EReal)
    (w2 : SW2.Idx → EReal) (b2 : SB2.Idx → EReal)
    (w1t : (⟨2, ![1024, 2048]⟩ : Shape).Idx → EReal) (w2t : (⟨2, ![1024, 1024]⟩ : Shape).Idx → EReal)
    (b1r : (⟨2, ![1, 2048]⟩ : Shape).Idx → EReal) (b2r : (⟨2, ![1, 1024]⟩ : Shape).Idx → EReal)
    (xr : Fin 1024 → EReal) (wd : BitVec 32) (b : Fin 8) (s : Fin 4096)
    (hw1 : ∀ (k : Fin 1024) (j : Fin 2048), w1t (ix2 k j) = w1 (ix2 j k))
    (hw2 : ∀ (h : Fin 1024) (d : Fin 1024), w2t (ix2 h d) = w2 (ix2 d (lo h)))
    (hb1 : ∀ j : Fin 2048, b1r (ix2 (0 : Fin 1) j) = b1 (ix1 j))
    (hb2 : ∀ d : Fin 1024, b2r (ix2 (0 : Fin 1) d) = b2 (ix1 d))
    (hx : ∀ k : Fin 1024, xr k = x (ix3 b s k))
    (hwd : wd = Cert.Width.kerWidth (e (ix2 b s))) (he : InRange (e (ix2 b s))) (d : Fin 1024) :
    rowOut w1t w2t b1r b2r xr wd d = outAt x e w1 b1 w2 b2 b s d := by
  subst hwd
  unfold rowOut outAt
  rw [hb2 d]
  refine congrArg (· + b2 (ix1 d)) (Finset.sum_congr rfl fun h _ => ?_)
  rw [hw2 h d]
  refine congrArg (· * w2 (ix2 d (lo h))) ?_
  unfold masked
  rw [rowAct_eq_act x w1 b1 w1t b1r xr b s hw1 hb1 hx h]
  exact if_congr (Cert.Width.slt_kerWidth_iff he h) rfl rfl

end Cert.RowBridge

end
-- ==== Proof.KerRun.lean ====
/-
  The kernel program's run, read: after the region the one remaining host line reshapes the 32768 × 1024 output array to
  8 × 4096 × 1024, so result entry (b, s, d) is entry (4096 b + s, d) of the array the region leaves — the row function of
  token (b, s) — which, with the region-entry arrays read in terms of the arguments, is the specification's entry.
-/
import proofs.«428732_j68298569941561_3_alg».proof.Proof.KerFinal
import proofs.«428732_j68298569941561_3_alg».proof.Proof.KerHost
import proofs.«428732_j68298569941561_3_alg».proof.Proof.RowBridge

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec Cert.RowSpec

variable (m : (ℓ : Loc nD τ sig) → Buf (Elt Ideal) ℓ) (ρ : Dev nD → PrngReg)

/-- The line after the region leaves the result buffer at the reshaped output array. -/
theorem tail_eq (c : Dev nD) :
    Pipeline.afterTail₀ cfgs (dats m) 0 (V0 m) [hostOps1] c main_v15
      = shapeCast S8x4096x1024 (Garr m c) shapeCasts_S32768x1024_S8x4096x1024 := by
  unfold Pipeline.afterTail₀
  show StableHlo.after hostOps1 _ (Proc.devRef .tc main_v15) = _
  after_results
  have hA := (Pipeline.withArrays_arr spec0 launch0.win.arr_inj c (V0 m c) (fun w => (dats m 0 c).arrAt w cfg0.N) 6).trans (final m c)
  funext i
  exact congrFun (congrArg (fun A => shapeCast S8x4096x1024 A shapeCasts_S32768x1024_S8x4096x1024) hA) i

/-- Result entry `(b, s, d)` is entry `(4096 b + s, d)` of the output array: the two have the same row-major position;
    and that entry, the row function of token `(b, s)`, is the specification's entry when the token's expert id is admitted. -/
theorem result_at (c : Dev nD) (b : Fin 8) (s : Fin 4096) (d : Fin 1024)
    (he : InRange (m ((c.tc : Thread nD τ).loc main_arg1) (ix2 b s))) :
    shapeCast S8x4096x1024 (Garr m c) shapeCasts_S32768x1024_S8x4096x1024 (ix3 b s d)
      = outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b s d := by
  rw [shapeCast_apply (Garr m c) shapeCasts_S32768x1024_S8x4096x1024 (ix3 b s d) (ix2 (tok b s) d) (by
    rw [Shape.rowMajor_val_two, Shape.rowMajor_val_three]
    show (4096 * b.val + s.val) * 1024 + d.val = (b.val * 4096 + s.val) * 1024 + d.val
    omega)]
  unfold Garr
  exact Cert.RowBridge.rowOut_eq_outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (V m c main_v8) (V m c main_v11) (V m c main_v12) (V m c main_v13)
    (fun k => V m c main_v0 (ix2 (tok b s) k)) (V m c main_v6 (ix2 (tok b s) (0 : Fin 1))) b s
    (V_v8_at m c) (V_v11_at m c) (V_v12_at m c) (V_v13_at m c) (fun k => V_v0_at m c b s k) (V_v6_at m c b s) he d

/-- THE KERNEL PROGRAM'S RUN: every weakly fair execution terminates, the result buffer holding the specification's
    entries and the six arguments unchanged, whenever every expert id is one of 0, 1, 2, 3. -/
theorem run (hr : ∀ (c : Dev nD) (i : S8x4096.Idx), InRange (m ((c.tc : Thread nD τ).loc main_arg1) i)) :
    θ_run defs (onTc (τ := τ) (main (F := Ideal))) ⟨m, fun _ => 0, ρ⟩ fun r => ∀ c : Dev nD,
      (∀ (b : Fin 8) (s : Fin 4096) (d : Fin 1024),
        r.2.mem ((c.tc : Thread nD τ).loc main_v15) (ix3 b s d) = outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b s d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨fun b s d => by
        rw [(h c).2 main_v15 (Pipeline.mem_restRefs_of main_v15 (by decide) (by decide)), tail_eq m c]
        exact result_at m c b s d (hr c _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.HandValue

end
-- ==== Proof.RefOps.lean ====
import proofs.«428732_j68298569941561_3_alg».proof.Proof.Gen.ReferenceIdeal
import Idealize.ShloMosaic.Lib.StableHlo.Run

/-! The reference program's @main as one straight line of host operations.

@main is printed in two windows run one after the other, and it calls outlined functions: a scalar-operand
select, six elementwise selects against zero (the square-and-multiply steps of an integer power of two), a
floored integer division (whose last line is itself a select) and a sigmoid-weighted unit. A call executes
the callee's body on the operands, each value of that body in a buffer of the call's own record, so the whole
program is the list below: every call replaced, where it stands, by its callee's operations over that call's
buffers. -/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's first window: the first projection with its bias and the two halves of it, then the integer chain
    from `3 - e` through the scalar-operand select and the first four select-against-zero steps. -/
abbrev ops0 : List (HloOp τ sig (Elt F)) :=
  [ binary main_arg0 main_arg2 main_v0 (fun l r => Host.dotGeneral dot_S8x4096x1024_S2048x1024_S8x4096x2048_2_1_01_0_n_n none l r),
    unary main_arg3 main_v1 (broadcastInDim S1x1x2048 ![2] bcast_S2048_S1x1x2048_2),
    unary main_v1 main_v2 (broadcastInDim S8x4096x2048 ![0, 1, 2] bcast_S1x1x2048_S8x4096x2048_0_1_2),
    binary main_v0 main_v2 main_v3 addf,
    unary main_v3 main_v4 (extractStridedSlice S8x4096x1024 ![0, 0, 0] · slices_S8x4096x2048_S8x4096x1024_0_0_0),
    unary main_v3 main_v5 (extractStridedSlice S8x4096x1024 ![0, 0, 1024] · slices_S8x4096x2048_S8x4096x1024_0_0_1024),
    nullary main_c (constantI S_ 32 3#32),
    unary main_c main_v6 (broadcastInDim S8x4096 ![] bcast_S_S8x4096),
    binary main_v6 main_arg1 main_v7 subi,
    nullary main_c_0 (constantI S_ 32 2#32),
    nullary main_c_1 (constantI S_ 32 0#32),
    binary main_c_0 main_c_1 main_v8 (cmpi .eq),
    nullary main_c_2 (constantI S_ 32 0#32),
    unary main_c_2 main_v9 (broadcastInDim S8x4096 ![] bcast_S_S8x4096),
    binary main_v7 main_v9 main_v10 (cmpi .ne),
    unary main_v8 main_v11 (broadcastInDim S8x4096 ![] bcast_S_S8x4096),
    binary main_v11 main_v10 main_v12 andi,
    nullary main_c_3 (constantI S_ 32 0#32),
    nullary main_c_4 (constantI S_ 32 1#32),
    -- the scalar-operand select: both scalars broadcast, then the select
    TRef.unary (.of main_c_3 : TRef sig ⟨S_, .i32⟩) main_call0.v0 (broadcastInDim S8x4096 ![] bcast_S_S8x4096),
    TRef.unary (.of main_c_4 : TRef sig ⟨S_, .i32⟩) main_call0.v1 (broadcastInDim S8x4096 ![] bcast_S_S8x4096),
    TRef.ternary (.of main_v12) main_call0.v0 main_call0.v1 main_call0.v2 select,
    nullary main_c_5 (constantI S_ 32 1#32),
    unary main_c_5 main_v14 (broadcastInDim S8x4096 ![] bcast_S_S8x4096),
    binary main_v7 main_v14 main_v15 andi,
    nullary main_c_6 (constantI S_ 32 2#32),
    unary main_c_6 main_v16 (broadcastInDim S8x4096 ![] bcast_S_S8x4096),
    binary main_v13 main_v16 main_v17 muli,
    -- select against zero, first step: the zero, its broadcast, the comparison, the select
    TRef.nullary main_call1.c (constantI S_ 32 0#32),
    TRef.unary main_call1.c main_call1.v0 (broadcastInDim S8x4096 ![] bcast_S_S8x4096),
    TRef.binary (.of main_v15) main_call1.v0 main_call1.v1 (cmpi .ne),
    TRef.ternary main_call1.v1 (.of main_v17) (.of main_v13) main_call1.v2 select,
    nullary main_c_7 (constantI S_ 32 2#32),
    nullary main_c_8 (constantI S_ 32 2#32),
    binary main_c_7 main_c_8 main_v19 muli,
    nullary main_c_9 (constantI S_ 32 1#32),
    unary main_c_9 main_v20 (broadcastInDim S8x4096 ![] bcast_S_S8x4096),
    binary main_v7 main_v20 main_v21 Host.shrui,
    nullary main_c_10 (constantI S_ 32 1#32),
    unary main_c_10 main_v22 (broadcastInDim S8x4096 ![] bcast_S_S8x4096),
    binary main_v21 main_v22 main_v23 andi,
    unary main_v19 main_v24 (broadcastInDim S8x4096 ![] bcast_S_S8x4096),
    binary main_v18 main_v24 main_v25 muli,
    -- second step
    TRef.nullary main_call2.c (constantI S_ 32 0#32),
    TRef.unary main_call2.c main_call2.v0 (broadcastInDim S8x4096 ![] bcast_S_S8x4096),
    TRef.binary (.of main_v23) main_call2.v0 main_call2.v1 (cmpi .ne),
    TRef.ternary main_call2.v1 (.of main_v25) (.of main_v18) main_call2.v2 select,
    binary main_v19 main_v19 main_v27 muli,
    nullary main_c_11 (constantI S_ 32 1#32),
    unary main_c_11 main_v28 (broadcastInDim S8x4096 ![] bcast_S_S8x4096),
    binary main_v21 main_v28 main_v29 Host.shrui,
    nullary main_c_12 (constantI S_ 32 1#32),
    unary main_c_12 main_v30 (broadcastInDim S8x4096 ![] bcast_S_S8x4096),
    binary main_v29 main_v30 main_v31 andi,
    unary main_v27 main_v32 (broadcastInDim S8x4096 ![] bcast_S_S8x4096),
    binary main_v26 main_v32 main_v33 muli,
    -- third step
    TRef.nullary main_call3.c (constantI S_ 32 0#32),
    TRef.unary main_call3.c main_call3.v0 (broadcastInDim S8x4096 ![] bcast_S_S8x4096),
    TRef.binary (.of main_v31) main_call3.v0 main_call3.v1 (cmpi .ne),
    TRef.ternary main_call3.v1 (.of main_v33) (.of main_v26) main_call3.v2 select,
    binary main_v27 main_v27 main_v35 muli,
    nullary main_c_13 (constantI S_ 32 1#32),
    unary main_c_13 main_v36 (broadcastInDim S8x4096 ![] bcast_S_S8x4096),
    binary main_v29 main_v36 main_v37 Host.shrui,
    nullary main_c_14 (constantI S_ 32 1#32),
    unary main_c_14 main_v38 (broadcastInDim S8x4096 ![] bcast_S_S8x4096),
    binary main_v37 main_v38 main_v39 andi,
    unary main_v35 main_v40 (broadcastInDim S8x4096 ![] bcast_S_S8x4096),
    binary main_v34 main_v40 main_v41 muli,
    -- fourth step
    TRef.nullary main_call4.c (constantI S_ 32 0#32),
    TRef.unary main_call4.c main_call4.v0 (broadcastInDim S8x4096 ![] bcast_S_S8x4096),
    TRef.binary (.of main_v39) main_call4.v0 main_call4.v1 (cmpi .ne),
    TRef.ternary main_call4.v1 (.of main_v41) (.of main_v34) main_call4.v2 select,
    binary main_v35 main_v35 main_v43 muli ]

/-- @main's second window: the last two select-against-zero steps and the unused tail of the integer chain, the
    floored division of 1024 by the power, the column mask it gives, the sigmoid-weighted unit on the first half,
    the gated product, and the second projection with its bias. -/
abbrev ops1 : List (HloOp τ sig (Elt F)) :=
  [ nullary main_c_15 (constantI S_ 32 1#32),
    unary main_c_15 main_v44 (broadcastInDim S8x4096 ![] bcast_S_S8x4096),
    binary main_v37 main_v44 main_v45 Host.shrui,
    nullary main_c_16 (constantI S_ 32 1#32),
    unary main_c_16 main_v46 (broadcastInDim S8x4096 ![] bcast_S_S8x4096),
    binary main_v45 main_v46 main_v47 andi,
    unary main_v43 main_v48 (broadcastInDim S8x4096 ![] bcast_S_S8x4096),
    binary main_v42 main_v48 main_v49 muli,
    -- fifth step
    TRef.nullary main_call5.c (constantI S_ 32 0#32),
    TRef.unary main_call5.c main_call5.v0 (broadcastInDim S8x4096 ![] bcast_S_S8x4096),
    TRef.binary (.of main_v47) main_call5.v0 main_call5.v1 (cmpi .ne),
    TRef.ternary main_call5.v1 (.of main_v49) (.of main_v42) main_call5.v2 select,
    binary main_v43 main_v43 main_v51 muli,
    nullary main_c_17 (constantI S_ 32 1#32),
    unary main_c_17 main_v52 (broadcastInDim S8x4096 ![] bcast_S_S8x4096),
    binary main_v45 main_v52 main_v53 Host.shrui,
    nullary main_c_18 (constantI S_ 32 1#32),
    unary main_c_18 main_v54 (broadcastInDim S8x4096 ![] bcast_S_S8x4096),
    binary main_v53 main_v54 main_v55 andi,
    unary main_v51 main_v56 (broadcastInDim S8x4096 ![] bcast_S_S8x4096),
    binary main_v50 main_v56 main_v57 muli,
    -- sixth step
    TRef.nullary main_call6.c (constantI S_ 32 0#32),
    TRef.unary main_call6.c main_call6.v0 (broadcastInDim S8x4096 ![] bcast_S_S8x4096),
    TRef.binary (.of main_v55) main_call6.v0 main_call6.v1 (cmpi .ne),
    TRef.ternary main_call6.v1 (.of main_v57) (.of main_v50) main_call6.v2 select,
    binary main_v51 main_v51 main_v59 muli,
    nullary main_c_19 (constantI S_ 32 1#32),
    unary main_c_19 main_v60 (broadcastInDim S8x4096 ![] bcast_S_S8x4096),
    binary main_v53 main_v60 main_v61 Host.shrui,
    nullary main_c_20 (constantI S_ 32 1024#32),
    -- floored division of the scalar by the array: truncated quotient, one less where the signs differ and the
    -- remainder is not zero; its last line is a select of its own
    TRef.unary (.of main_c_20) main_call7.v0 id,
    TRef.unary main_call7.v0 main_call7.v1 (broadcastInDim S8x4096 ![] bcast_S_S8x4096),
    TRef.binary main_call7.v1 (.of main_v58) main_call7.v2 Host.divsi,
    TRef.unary main_call7.v0 main_call7.v3 signi,
    TRef.unary (.of main_v58) main_call7.v4 signi,
    TRef.unary main_call7.v3 main_call7.v5 (broadcastInDim S8x4096 ![] bcast_S_S8x4096),
    TRef.binary main_call7.v5 main_call7.v4 main_call7.v6 (cmpi .ne),
    TRef.unary main_call7.v0 main_call7.v7 (broadcastInDim S8x4096 ![] bcast_S_S8x4096),
    TRef.binary main_call7.v7 (.of main_v58) main_call7.v8 Host.remsi,
    TRef.nullary main_call7.c (constantI S_ 32 0#32),
    TRef.unary main_call7.c main_call7.v9 (broadcastInDim S8x4096 ![] bcast_S_S8x4096),
    TRef.binary main_call7.v8 main_call7.v9 main_call7.v10 (cmpi .ne),
    TRef.binary main_call7.v6 main_call7.v10 main_call7.v11 andi,
    TRef.nullary main_call7.c_0 (constantI S_ 32 1#32),
    TRef.unary main_call7.c_0 main_call7.v12 (broadcastInDim S8x4096 ![] bcast_S_S8x4096),
    TRef.binary main_call7.v2 main_call7.v12 main_call7.v13 subi,
    TRef.ternary main_call7.v11 main_call7.v13 main_call7.v2 main_call7.call0.v0 select,
    nullary main_v63 (iotaInDim S1024 32 0),
    unary main_v62 main_v64 (broadcastInDim S8x4096x1 ![0, 1] bcast_S8x4096_S8x4096x1_0_1),
    unary main_v63 main_v65 (broadcastInDim S1x1x1024 ![2] bcast_S1024_S1x1x1024_2),
    unary main_v65 main_v66 (broadcastInDim S8x4096x1024 ![0, 1, 2] bcast_S1x1x1024_S8x4096x1024_0_1_2),
    unary main_v64 main_v67 (broadcastInDim S8x4096x1024 ![0, 1, 2] bcast_S8x4096x1_S8x4096x1024_0_1_2),
    binary main_v66 main_v67 main_v68 (cmpi .slt),
    unary main_v68 main_v69 (uitofp .f32),
    -- the sigmoid-weighted unit: x · (1 / (1 + exp (−x)))
    TRef.unary (.of main_v4) main_call8.v0 Host.negf,
    TRef.unary main_call8.v0 main_call8.v1 Host.exp,
    TRef.nullary main_call8.cst (constant S_ .f32 0x3F800000#32),
    TRef.unary main_call8.cst main_call8.v2 (broadcastInDim S8x4096x1024 ![] bcast_S_S8x4096x1024),
    TRef.binary main_call8.v2 main_call8.v1 main_call8.v3 addf,
    TRef.nullary main_call8.cst_0 (constant S_ .f32 0x3F800000#32),
    TRef.unary main_call8.cst_0 main_call8.v4 (broadcastInDim S8x4096x1024 ![] bcast_S_S8x4096x1024),
    TRef.binary main_call8.v4 main_call8.v3 main_call8.v5 Host.divf,
    TRef.binary (.of main_v4) main_call8.v5 main_call8.v6 mulf,
    binary main_v70 main_v5 main_v71 mulf,
    binary main_v71 main_v69 main_v72 mulf,
    unary main_arg4 main_v73 (extractStridedSlice S1024x1024 ![0, 0] · slices_S1024x2048_S1024x1024_0_0),
    binary main_v72 main_v73 main_v74 (fun l r => Host.dotGeneral dot_S8x4096x1024_S1024x1024_S8x4096x1024_2_1_01_0_n_n none l r),
    unary main_arg5 main_v75 (broadcastInDim S1x1x1024 ![2] bcast_S1024_S1x1x1024_2),
    unary main_v75 main_v76 (broadcastInDim S8x4096x1024 ![0, 1, 2] bcast_S1x1x1024_S8x4096x1024_0_1_2),
    binary main_v74 main_v76 main_v77 addf ]

/-- @main's operations in program order: the two windows one after the other. -/
abbrev ops : List (HloOp τ sig (Elt F)) := ops0 ++ ops1

-- seventy-four binds re-associated: the rewrite under the chain recurses once per statement
set_option maxRecDepth 8192 in
/-- The first window is its straight line: the callees' definitions unfolded at their calls and the records at
    their fields, both sides are one chain of steps once sequencing is re-associated. -/
theorem part0_eq (c : Dev nD) : main_part0 (F := F) c = seq ops0 := by
  simp only [main_part0, fn_where.body, fn_where_0.body, seq, bind_assoc, pure_bind]
  rfl

set_option maxRecDepth 8192 in
/-- The second window likewise; the floored division's own call is unfolded inside it. -/
theorem part1_eq (c : Dev nD) : main_part1 (F := F) c = seq ops1 := by
  simp only [main_part1, fn_where_0.body, fn_floor_divide.body, fn_where_1.body, fn_silu.body, seq, bind_assoc, pure_bind]
  rfl

/-- @main runs the first window then the second, and two lines run one after the other are their concatenation
    run as one. -/
theorem main_eq (c : Dev nD) : main (F := F) c = seq ops := by
  have h : main (F := F) c = (main_part0 c >>= fun _ => main_part1 c) := rfl
  rw [h, part0_eq, part1_eq, ← seq_append]

theorem scopedRefs_eq : (Finset.univ.filter fun b : Ref sig .tc => b.isScoped) = ∅ := by decide
theorem scopedSems_eq : (Finset.univ.filter fun sm : SemLoc sig => sm.isScoped .tc) = ∅ := by decide

/-- Every operation of the first window reads and writes TensorCore buffers only: one fact per operation, by its arity. -/
theorem ops0_sub : (ops0 : List (HloOp τ sig (Elt F))).Forall fun op => op.bufs ⊆ tcRefs τ sig :=
  ⟨binary_bufs_sub .., unary_bufs_sub .., unary_bufs_sub .., binary_bufs_sub .., unary_bufs_sub .., unary_bufs_sub ..,
    nullary_bufs_sub .., unary_bufs_sub .., binary_bufs_sub .., nullary_bufs_sub .., nullary_bufs_sub .., binary_bufs_sub ..,
    nullary_bufs_sub .., unary_bufs_sub .., binary_bufs_sub .., unary_bufs_sub .., binary_bufs_sub .., nullary_bufs_sub ..,
    nullary_bufs_sub ..,
    unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub ..,
    nullary_bufs_sub .., nullary_bufs_sub .., binary_bufs_sub .., nullary_bufs_sub .., unary_bufs_sub .., binary_bufs_sub ..,
    nullary_bufs_sub .., unary_bufs_sub .., binary_bufs_sub .., unary_bufs_sub .., binary_bufs_sub ..,
    nullary_bufs_sub .., unary_bufs_sub .., binary_bufs_sub .., ternary_bufs_sub ..,
    binary_bufs_sub .., nullary_bufs_sub .., unary_bufs_sub .., binary_bufs_sub .., nullary_bufs_sub .., unary_bufs_sub ..,
    binary_bufs_sub .., unary_bufs_sub .., binary_bufs_sub ..,
    nullary_bufs_sub .., unary_bufs_sub .., binary_bufs_sub .., ternary_bufs_sub ..,
    binary_bufs_sub .., nullary_bufs_sub .., unary_bufs_sub .., binary_bufs_sub .., nullary_bufs_sub .., unary_bufs_sub ..,
    binary_bufs_sub .., unary_bufs_sub .., binary_bufs_sub ..,
    nullary_bufs_sub .., unary_bufs_sub .., binary_bufs_sub .., ternary_bufs_sub ..,
    binary_bufs_sub ..⟩

/-- The same of the second window. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., binary_bufs_sub ..,
    nullary_bufs_sub .., unary_bufs_sub .., binary_bufs_sub .., ternary_bufs_sub ..,
    binary_bufs_sub .., nullary_bufs_sub .., unary_bufs_sub .., binary_bufs_sub .., nullary_bufs_sub .., unary_bufs_sub ..,
    binary_bufs_sub .., unary_bufs_sub .., binary_bufs_sub ..,
    nullary_bufs_sub .., unary_bufs_sub .., binary_bufs_sub .., ternary_bufs_sub ..,
    binary_bufs_sub .., nullary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., unary_bufs_sub .., unary_bufs_sub .., unary_bufs_sub .., unary_bufs_sub .., binary_bufs_sub ..,
    unary_bufs_sub ..,
    unary_bufs_sub .., unary_bufs_sub .., nullary_bufs_sub .., unary_bufs_sub .., binary_bufs_sub .., nullary_bufs_sub ..,
    unary_bufs_sub .., binary_bufs_sub .., binary_bufs_sub ..,
    binary_bufs_sub .., binary_bufs_sub .., unary_bufs_sub .., binary_bufs_sub .., unary_bufs_sub .., unary_bufs_sub ..,
    binary_bufs_sub ..⟩

/-- And so of the whole line. -/
theorem ops_sub : (ops : List (HloOp τ sig (Elt F))).Forall fun op => op.bufs ⊆ tcRefs τ sig :=
  List.forall_append.mpr ⟨ops0_sub, ops1_sub⟩

/-- The contents after two lines run one after the other: the second line's fold from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.HandRun

end
-- ==== Proof.RefTerm.lean ====
/-
  What the reference program computes, as one pure term: its operations composed in the order the
  program applies them, arranged in named stages.

  A token's 2048 pre-activations are the row of `x` against the rows of `w1` plus the bias; the first
  1024 are the gate branch, the last 1024 the up branch.  The token's live width is 1024 floor-divided
  by 2^(3 − e), the power computed by six squaring steps over the bits of the exponent.  A hidden unit
  is silu(gate) · up, multiplied by the 0/1 indicator "unit index < live width"; the output is the
  masked units against the first 1024 columns of `w2`, plus the second bias.
-/
import proofs.«428732_j68298569941561_3_alg».proof.Proof.Gen.ReferenceIdeal

noncomputable section

open Cert.ReferenceIdeal Cert.ReferenceIdeal.Facts₀ Idealize.ShloMosaic

namespace Cert.ReferenceIdeal.HandTerm

variable {F : FTy → Type} [FloatOps F]

/-- One scalar repeated at every token. -/
def splat {α : Type} (c : S_.Idx → α) : S8x4096.Idx → α :=
  broadcastInDim S8x4096 ![] bcast_S_S8x4096 c

/-- The 2048 pre-activations of every token: `x` against the rows of `w1`, plus `b1` repeated over the tokens. -/
def preact (x : FVec F S8x4096x1024 .f32) (w1 : FVec F S2048x1024 .f32) (b1 : FVec F S2048 .f32) :
    FVec F S8x4096x2048 .f32 :=
  addf (Host.dotGeneral dot_S8x4096x1024_S2048x1024_S8x4096x2048_2_1_01_0_n_n none x w1)
    (broadcastInDim S8x4096x2048 ![0, 1, 2] bcast_S1x1x2048_S8x4096x2048_0_1_2
      (broadcastInDim S1x1x2048 ![2] bcast_S2048_S1x1x2048_2 b1))

/-- The gate branch: pre-activations 0 … 1023. -/
def gate (z : FVec F S8x4096x2048 .f32) : FVec F S8x4096x1024 .f32 :=
  extractStridedSlice S8x4096x1024 ![0, 0, 0] z slices_S8x4096x2048_S8x4096x1024_0_0_0

/-- The up branch: pre-activations 1024 … 2047. -/
def up (z : FVec F S8x4096x2048 .f32) : FVec F S8x4096x1024 .f32 :=
  extractStridedSlice S8x4096x1024 ![0, 0, 1024] z slices_S8x4096x2048_S8x4096x1024_0_0_1024

/-- The exponent of the divisor: 3 − e at every token. -/
def expo (e : IVec S8x4096 32) : IVec S8x4096 32 :=
  subi (splat (constantI S_ 32 3#32)) e

/-- The power's starting value: 1, except 0 where the base is 0 and the exponent is not (the base is 2, so 1). -/
def powInit (n : IVec S8x4096 32) : IVec S8x4096 32 :=
  select
    (andi (splat (cmpi .eq (constantI S_ 32 2#32) (constantI S_ 32 0#32)))
      (cmpi .ne n (splat (constantI S_ 32 0#32))))
    (splat (constantI S_ 32 0#32)) (splat (constantI S_ 32 1#32))

/-- One squaring step: where the low bit of `bits` is set the accumulator is multiplied by `base`, elsewhere kept. -/
def powStep (bits acc : IVec S8x4096 32) (base : IVec S_ 32) : IVec S8x4096 32 :=
  select (cmpi .ne (andi bits (splat (constantI S_ 32 1#32))) (splat (constantI S_ 32 0#32)))
    (muli acc (splat base)) acc

/-- The exponent's bits shifted right by one place. -/
def shr1 (bits : IVec S8x4096 32) : IVec S8x4096 32 :=
  Host.shrui bits (splat (constantI S_ 32 1#32))

/-- The successive squares of the base 2, as scalars: 2, 4, 16, 256, 65536, 0 (mod 2^32). -/
def base0 : IVec S_ 32 := constantI S_ 32 2#32
def base1 : IVec S_ 32 := muli (constantI S_ 32 2#32) (constantI S_ 32 2#32)
def base2 : IVec S_ 32 := muli base1 base1
def base3 : IVec S_ 32 := muli base2 base2
def base4 : IVec S_ 32 := muli base3 base3
def base5 : IVec S_ 32 := muli base4 base4

/-- 2 to the power `n` at every token, by six squaring steps over the bits of `n`. -/
def pow2 (n : IVec S8x4096 32) : IVec S8x4096 32 :=
  powStep (shr1 (shr1 (shr1 (shr1 (shr1 n)))))
    (powStep (shr1 (shr1 (shr1 (shr1 n))))
      (powStep (shr1 (shr1 (shr1 n)))
        (powStep (shr1 (shr1 n))
          (powStep (shr1 n)
            (powStep n (powInit n) base0)
            base1)
          base2)
        base3)
      base4)
    base5

/-- The scalar `n` floor-divided by `p` at every token: the truncated quotient, less one where the signs differ
    and the remainder is not zero. -/
def floorDiv (n : IVec S_ 32) (p : IVec S8x4096 32) : IVec S8x4096 32 :=
  select
    (andi (cmpi .ne (splat (signi n)) (signi p))
      (cmpi .ne (Host.remsi (splat n) p) (splat (constantI S_ 32 0#32))))
    (subi (Host.divsi (splat n) p) (splat (constantI S_ 32 1#32)))
    (Host.divsi (splat n) p)

/-- The live width of every token: 1024 floor-divided by 2^(3 − e). -/
def width (e : IVec S8x4096 32) : IVec S8x4096 32 :=
  floorDiv (constantI S_ 32 1024#32) (pow2 (expo e))

/-- The 0/1 indicator of the live units: unit index below the token's width, as a float. -/
def mask (wd : IVec S8x4096 32) : FVec F S8x4096x1024 .f32 :=
  uitofp .f32
    (cmpi .slt
      (broadcastInDim S8x4096x1024 ![0, 1, 2] bcast_S1x1x1024_S8x4096x1024_0_1_2
        (broadcastInDim S1x1x1024 ![2] bcast_S1024_S1x1x1024_2 (iotaInDim S1024 32 0)))
      (broadcastInDim S8x4096x1024 ![0, 1, 2] bcast_S8x4096x1_S8x4096x1024_0_1_2
        (broadcastInDim S8x4096x1 ![0, 1] bcast_S8x4096_S8x4096x1_0_1 wd)))

/-- silu: g times 1 / (1 + e^(−g)). -/
def silu (g : FVec F S8x4096x1024 .f32) : FVec F S8x4096x1024 .f32 :=
  mulf g
    (Host.divf (broadcastInDim S8x4096x1024 ![] bcast_S_S8x4096x1024 (constant S_ .f32 0x3F800000#32))
      (addf (broadcastInDim S8x4096x1024 ![] bcast_S_S8x4096x1024 (constant S_ .f32 0x3F800000#32))
        (Host.exp (Host.negf g))))

/-- The masked hidden units: (silu(gate) · up) · indicator. -/
def hidden (z : FVec F S8x4096x2048 .f32) (e : IVec S8x4096 32) : FVec F S8x4096x1024 .f32 :=
  mulf (mulf (silu (gate z)) (up z)) (mask (width e))

/-- The first 1024 columns of `w2`. -/
def w2lo (w2 : FVec F S1024x2048 .f32) : FVec F S1024x1024 .f32 :=
  extractStridedSlice S1024x1024 ![0, 0] w2 slices_S1024x2048_S1024x1024_0_0

/-- the reference's result array as a pure function of its six argument arrays: the program's operations composed -/
def refOut (x : FVec F S8x4096x1024 .f32) (e : IVec S8x4096 32) (w1 : FVec F S2048x1024 .f32) (b1 : FVec F S2048 .f32)
    (w2 : FVec F S1024x2048 .f32) (b2 : FVec F S1024 .f32) : FVec F S8x4096x1024 .f32 :=
  addf
    (Host.dotGeneral dot_S8x4096x1024_S1024x1024_S8x4096x1024_2_1_01_0_n_n none (hidden (preact x w1 b1) e) (w2lo w2))
    (broadcastInDim S8x4096x1024 ![0, 1, 2] bcast_S1x1x1024_S8x4096x1024_0_1_2
      (broadcastInDim S1x1x1024 ![2] bcast_S1024_S1x1x1024_2 b2))

end Cert.ReferenceIdeal.HandTerm

end
-- ==== Proof.RefRun.lean ====
import proofs.«428732_j68298569941561_3_alg».proof.Proof.RefOps
import proofs.«428732_j68298569941561_3_alg».proof.Proof.RefTerm

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! The reference's run read back: what its result buffer holds when it ends.

The line is two windows. What the second window reads of the first is seven buffers: the two halves of the first
projection, the exponent's bits after three shifts, the power accumulated over the first four bits, the base squared
four times, and the second projection's weight and bias (arguments, which nothing writes). The first window's
contents at those buffers, and the second window's result from ANY contents at them, are read off separately and
joined by the fact that a fold over a concatenation is the second fold from the first. -/

open HandTerm in
/-- The second window's result as a function of what it reads: the last two squaring steps (the sixth base is the
    fifth squared), the floored division of 1024 by the power, the mask, the gated product and the second projection. -/
def out1 (g u : FVec F S8x4096x1024 .f32) (bits acc : IVec S8x4096 32) (b4 : IVec S_ 32)
    (w2 : FVec F S1024x2048 .f32) (b2 : FVec F S1024 .f32) : FVec F S8x4096x1024 .f32 :=
  addf
    (Host.dotGeneral dot_S8x4096x1024_S1024x1024_S8x4096x1024_2_1_01_0_n_n none
      (mulf (mulf (silu g) u)
        (mask (floorDiv (constantI S_ 32 1024#32)
          (powStep (shr1 (shr1 bits)) (powStep (shr1 bits) acc b4) (muli b4 b4)))))
      (w2lo w2))
    (broadcastInDim S8x4096x1024 ![0, 1, 2] bcast_S1x1x1024_S8x4096x1024_0_1_2
      (broadcastInDim S1x1x1024 ![2] bcast_S1024_S1x1x1024_2 b2))

section Windows

variable (V : Valuation τ sig (Elt F))

/-- After the first window the gate half holds the first 1024 pre-activations. -/
theorem w0_v4 : after ops0 V (Proc.devRef .tc main_v4)
    = HandTerm.gate (HandTerm.preact (V (Proc.devRef .tc main_arg0)) (V (Proc.devRef .tc main_arg2)) (V (Proc.devRef .tc main_arg3))) := by
  after_results_simp <;> rfl

/-- … and the up half the last 1024. -/
theorem w0_v5 : after ops0 V (Proc.devRef .tc main_v5)
    = HandTerm.up (HandTerm.preact (V (Proc.devRef .tc main_arg0)) (V (Proc.devRef .tc main_arg2)) (V (Proc.devRef .tc main_arg3))) := by
  after_results_simp <;> rfl

/-- The exponent's bits after three shifts. -/
theorem w0_v37 : after ops0 V (Proc.devRef .tc main_v37)
    = HandTerm.shr1 (HandTerm.shr1 (HandTerm.shr1 (HandTerm.expo (V (Proc.devRef .tc main_arg1))))) := by
  after_results_simp <;> rfl

/-- The power accumulated over the exponent's first four bits. -/
theorem w0_v42 : after ops0 V (Proc.devRef .tc main_v42)
    = HandTerm.powStep (HandTerm.shr1 (HandTerm.shr1 (HandTerm.shr1 (HandTerm.expo (V (Proc.devRef .tc main_arg1))))))
        (HandTerm.powStep (HandTerm.shr1 (HandTerm.shr1 (HandTerm.expo (V (Proc.devRef .tc main_arg1)))))
          (HandTerm.powStep (HandTerm.shr1 (HandTerm.expo (V (Proc.devRef .tc main_arg1))))
            (HandTerm.powStep (HandTerm.expo (V (Proc.devRef .tc main_arg1)))
              (HandTerm.powInit (HandTerm.expo (V (Proc.devRef .tc main_arg1)))) HandTerm.base0)
            HandTerm.base1)
          HandTerm.base2)
        HandTerm.base3 := by
  after_results_simp <;> rfl

/-- The base squared four times. -/
theorem w0_v43 : after ops0 V (Proc.devRef .tc main_v43) = (HandTerm.base4 : IVec S_ 32) := by
  after_results_simp <;> rfl

/-- The first window writes neither of the second projection's arguments. -/
theorem w0_arg4 : after ops0 V (Proc.devRef .tc main_arg4) = V (Proc.devRef .tc main_arg4) := by
  after_results_simp <;> rfl
theorem w0_arg5 : after ops0 V (Proc.devRef .tc main_arg5) = V (Proc.devRef .tc main_arg5) := by
  after_results_simp <;> rfl

-- the composed term carries some fifty transports along buffer-type equations (the callees' values are read at the
-- type their function states), each the identity once the buffer's type is evaluated from the table: the
-- comparison with the staged term does those evaluations one by one, hence ten times the default budget
set_option maxHeartbeats 2000000 in
/-- The second window's result from any contents `V` at its start. -/
theorem w1_out : after ops1 V (Proc.devRef .tc main_v77)
    = out1 (V (Proc.devRef .tc main_v4)) (V (Proc.devRef .tc main_v5)) (V (Proc.devRef .tc main_v37))
        (V (Proc.devRef .tc main_v42)) (V (Proc.devRef .tc main_v43)) (V (Proc.devRef .tc main_arg4))
        (V (Proc.devRef .tc main_arg5)) := by
  after_results_simp <;> rfl

end Windows

section Whole

variable (V : Valuation τ sig (Elt F))

/-- The result buffer after the whole line: the second window's result from the first window's contents, which at
    the seven buffers read are the stages above; the composed stages are the reference's term by unfolding. -/
theorem out_eq : after ops V (Proc.devRef .tc main_v77)
    = HandTerm.refOut (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  show after (ops0 ++ ops1) V _ = _
  rw [after_append, w1_out, w0_v4, w0_v5, w0_v37, w0_v42, w0_v43, w0_arg4, w0_arg5]
  rfl

/-- No operation of the line writes an argument's buffer: each keeps its contents. -/
theorem arg0_eq : after ops V (Proc.devRef .tc main_arg0) = V (Proc.devRef .tc main_arg0) := by
  show after (ops0 ++ ops1) V _ = _
  rw [after_append]; after_results_simp <;> rfl
theorem arg1_eq : after ops V (Proc.devRef .tc main_arg1) = V (Proc.devRef .tc main_arg1) := by
  show after (ops0 ++ ops1) V _ = _
  rw [after_append]; after_results_simp <;> rfl
theorem arg2_eq : after ops V (Proc.devRef .tc main_arg2) = V (Proc.devRef .tc main_arg2) := by
  show after (ops0 ++ ops1) V _ = _
  rw [after_append]; after_results_simp <;> rfl
theorem arg3_eq : after ops V (Proc.devRef .tc main_arg3) = V (Proc.devRef .tc main_arg3) := by
  show after (ops0 ++ ops1) V _ = _
  rw [after_append]; after_results_simp <;> rfl
theorem arg4_eq : after ops V (Proc.devRef .tc main_arg4) = V (Proc.devRef .tc main_arg4) := by
  show after (ops0 ++ ops1) V _ = _
  rw [after_append]; after_results_simp <;> rfl
theorem arg5_eq : after ops V (Proc.devRef .tc main_arg5) = V (Proc.devRef .tc main_arg5) := by
  show after (ops0 ++ ops1) V _ = _
  rw [after_append]; after_results_simp <;> rfl

end Whole

/-- Every operation determines its results (none allocates a fresh buffer): by cases on the literal list. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops_fresh : ∀ op ∈ (ops : List (HloOp τ sig (Elt F))), op.fresh = ∅ :=
  fun op h => (List.mem_append.mp h).elim (ops0_fresh op) (ops1_fresh op)

/-- every weakly fair execution of the reference terminates, its result buffer at the composed term of the launch contents, its six arguments unchanged -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = Cert.ReferenceIdeal.HandTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v77).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_seq scopedRefs_eq scopedSems_eq defs main (fun _ => ops) main_eq (fun _ => ops_sub) m ρ (fun _ => ops_fresh))

end Cert.ReferenceIdeal.HandRun

end
-- ==== Proof.RefValue.lean ====
/-
  The reference's result term read at one output entry (b, s, d), on the extended reals.

  Stage by stage: a product contracted on one axis, read at an entry, is the sum over the contracted
  coordinate of the products of the two rows; slices and repetitions re-index; the integer chain is
  pointwise in the token, so the width array at (b, s) is one word function of the token's expert id,
  which evaluates to 128, 256, 512, 1024 on the four admitted ids; the signed comparison of a unit
  index with such a width is the comparison of the naturals; the indicator read as a real is 1 on a
  live unit and 0 on a dead one, and x · 1 = x, x · 0 = 0 for every extended real; 1 / (1 + e^(−g))
  is the logistic function by definition.  Sums and products stand in the same order on both sides.
-/
import proofs.«428732_j68298569941561_3_alg».proof.Proof.RefTerm
import proofs.«428732_j68298569941561_3_alg».proof.Proof.Spec
import Idealize.ShloMosaic.Lib.ValueIdx
import Idealize.ShloMosaic.Lib.Pipeline.Value
import Idealize.ShloMosaic.PureOps.Ideal.Laws

noncomputable section

open scoped BigOperators
open Cert.ReferenceIdeal Cert.ReferenceIdeal.Facts₀ Idealize.ShloMosaic Idealize.ShloMosaic.ValueIdx

namespace Cert.ReferenceIdeal.HandValue

open Cert.ReferenceIdeal.HandTerm

/-! ## A row-against-row product read at one entry -/

section Dot
variable {B S K N : Nat} {φ₁ φ₂ : FTy}

/-- A [B, S, K] array contracted on its last axis against the last axis of an [N, K] array: the entry (b, s, n) is
    the sum over the contracted coordinate of the products of row (b, s) of the first with row n of the second. -/
theorem dotRows_apply
    (w : DotDims.WF ⟨3, ![B, S, K]⟩ ⟨2, ![N, K]⟩ ⟨3, ![B, S, N]⟩ [2] [1] [0, 1] [0] [] [])
    (prec : Option ContractPrecision) (A : FVec Ideal ⟨3, ![B, S, K]⟩ φ₁) (Wt : FVec Ideal ⟨2, ![N, K]⟩ φ₂)
    (b : Fin B) (s : Fin S) (n : Fin N) :
    Host.dotGeneral (⟨[2], [1], [0, 1], [0], [], [], w⟩ : DotDims _ _ _) prec A Wt (ix3 b s n)
      = ∑ k : Fin K, A (ix3 b s k) * Wt (ix2 n k) := by
  show FloatOps.dotGeneral _ prec _ A Wt (ix3 b s n) = _
  rw [Ideal.dotGeneral_apply,
    ← Equiv.sum_comp (contrEquiv1 (⟨[2], [1], [0, 1], [0], [], [], w⟩ : DotDims _ _ _) K rfl rfl).symm]
  refine Finset.sum_congr rfl fun c _ => ?_
  have c3 := contrEquiv1_symm_val
    (⟨[2], [1], [0, 1], [0], [], [], w⟩ : DotDims ⟨3, ![B, S, K]⟩ ⟨2, ![N, K]⟩ ⟨3, ![B, S, N]⟩) K rfl rfl c
  have l3 : (⟨[2], [1], [0, 1], [0], [], [], w⟩ : DotDims ⟨3, ![B, S, K]⟩ ⟨2, ![N, K]⟩ ⟨3, ![B, S, N]⟩).lhsIdx (ix3 b s n)
      ((contrEquiv1 _ K rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![B, S, K]⟩ ⟨2, ![N, K]⟩ ⟨3, ![B, S, N]⟩).rhsIdx (ix3 b s n)
      ((contrEquiv1 _ K rfl rfl).symm c) = ix2 n c := by
    funext ax; apply Fin.ext
    match ax with
    | ⟨0, _⟩ => simp [DotDims.rhsIdx]; rfl
    | ⟨1, _⟩ => simp [DotDims.rhsIdx]; exact c3
  rw [l3, r3]

end Dot

/-! ## The live width of one token, as a function of its expert id -/

/-- The sign of a word: 0, −1 or 1. -/
def sgn (x : BitVec 32) : BitVec 32 := if x = 0 then 0 else if x.msb then -1 else 1

/-- The power's starting value at one token. -/
def initW (n : BitVec 32) : BitVec 32 :=
  Scalar.select (IntOp.andi (IntOp.cmpi .eq 2#32 0#32) (IntOp.cmpi .ne n 0#32)) 0#32 1#32

/-- One squaring step at one token. -/
def stepW (bits acc base : BitVec 32) : BitVec 32 :=
  Scalar.select (IntOp.cmpi .ne (IntOp.andi bits 1#32) 0#32) (IntOp.muli acc base) acc

/-- The bits shifted right by one place. -/
def shrW (bits : BitVec 32) : BitVec 32 := IntOp.shrui .host bits 1#32

def bs0 : BitVec 32 := 2#32
def bs1 : BitVec 32 := IntOp.muli 2#32 2#32
def bs2 : BitVec 32 := IntOp.muli bs1 bs1
def bs3 : BitVec 32 := IntOp.muli bs2 bs2
def bs4 : BitVec 32 := IntOp.muli bs3 bs3
def bs5 : BitVec 32 := IntOp.muli bs4 bs4

/-- 2 to the power `n` by six squaring steps, at one token. -/
def powW (n : BitVec 32) : BitVec 32 :=
  stepW (shrW (shrW (shrW (shrW (shrW n)))))
    (stepW (shrW (shrW (shrW (shrW n))))
      (stepW (shrW (shrW (shrW n)))
        (stepW (shrW (shrW n))
          (stepW (shrW n)
            (stepW n (initW n) bs0)
            bs1)
          bs2)
        bs3)
      bs4)
    bs5

/-- `n` floor-divided by `p`, at one token. -/
def fdivW (n p : BitVec 32) : BitVec 32 :=
  Scalar.select
    (IntOp.andi (IntOp.cmpi .ne (sgn n) (sgn p)) (IntOp.cmpi .ne (IntOp.remsi .host n p) 0#32))
    (IntOp.subi (IntOp.divsi .host n p) 1#32)
    (IntOp.divsi .host n p)

/-- The live width of a token with expert id `e`: 1024 floor-divided by 2^(3 − e). -/
def W (e : BitVec 32) : BitVec 32 := fdivW 1024#32 (powW (IntOp.subi 3#32 e))

theorem W_0 : W 0#32 = 128#32 := by decide
theorem W_1 : W 1#32 = 256#32 := by decide
theorem W_2 : W 2#32 = 512#32 := by decide
theorem W_3 : W 3#32 = 1024#32 := by decide

/-! ## The integer stages read at one token -/

theorem splat_const {w : Nat} (c : BitVec w) (j : S8x4096.Idx) : splat (constantI S_ w c) j = c := rfl

theorem expo_apply (e : IVec S8x4096 32) (j : S8x4096.Idx) : expo e j = IntOp.subi 3#32 (e j) := rfl

theorem powInit_apply (n : IVec S8x4096 32) (j : S8x4096.Idx) : powInit n j = initW (n j) := rfl

theorem powStep_apply (bits acc : IVec S8x4096 32) (base : IVec S_ 32) (j : S8x4096.Idx) :
    powStep bits acc base j = stepW (bits j) (acc j) (splat base j) := rfl

theorem shr1_apply (bits : IVec S8x4096 32) (j : S8x4096.Idx) : shr1 bits j = shrW (bits j) := rfl

theorem splat_base0 (j : S8x4096.Idx) : splat base0 j = bs0 := rfl
theorem splat_base1 (j : S8x4096.Idx) : splat base1 j = bs1 := rfl
theorem splat_base2 (j : S8x4096.Idx) : splat base2 j = bs2 := rfl
theorem splat_base3 (j : S8x4096.Idx) : splat base3 j = bs3 := rfl
theorem splat_base4 (j : S8x4096.Idx) : splat base4 j = bs4 := rfl
theorem splat_base5 (j : S8x4096.Idx) : splat base5 j = bs5 := rfl

theorem pow2_apply (n : IVec S8x4096 32) (j : S8x4096.Idx) : pow2 n j = powW (n j) := by
  unfold pow2 powW
  simp only [powStep_apply, shr1_apply, powInit_apply, splat_base0, splat_base1, splat_base2, splat_base3,
    splat_base4, splat_base5]

theorem floorDiv_apply (p : IVec S8x4096 32) (j : S8x4096.Idx) :
    floorDiv (constantI S_ 32 1024#32) p j = fdivW 1024#32 (p j) := rfl

/-- The width array at a token is the width function of that token's expert id. -/
theorem width_apply (e : IVec S8x4096 32) (j : S8x4096.Idx) : width e j = W (e j) := by
  unfold width W
  rw [floorDiv_apply, pow2_apply, expo_apply]

/-! ## Layout operations read at one entry -/

section Layout
variable {α : Type}

/-- A length-1024 vector repeated over the tokens, read at (b, s, h), is its entry h. -/
theorem rep1024_apply (v : S1024.Idx → α) (b : Fin 8) (s : Fin 4096) (h : Fin 1024) :
    broadcastInDim S8x4096x1024 ![0, 1, 2] bcast_S1x1x1024_S8x4096x1024_0_1_2
        (broadcastInDim S1x1x1024 ![2] bcast_S1024_S1x1x1024_2 v) (ix3 b s h) = v (ix1 h) := by
  rw [broadcastInDim_apply _ _ _ (ix3 b s h) (ix3 (0 : Fin 1) (0 : Fin 1) h) (by
    intro a
    match a with
    | ⟨0, _⟩ => rfl
    | ⟨1, _⟩ => rfl
    | ⟨2, _⟩ => rfl)]
  exact broadcastInDim_apply _ _ _ (ix3 (0 : Fin 1) (0 : Fin 1) h) (ix1 h) (by
    intro a
    match a with
    | ⟨0, _⟩ => rfl)

/-- A length-2048 vector repeated over the tokens, read at (b, s, j), is its entry j. -/
theorem rep2048_apply (v : S2048.Idx → α) (b : Fin 8) (s : Fin 4096) (j : Fin 2048) :
    broadcastInDim S8x4096x2048 ![0, 1, 2] bcast_S1x1x2048_S8x4096x2048_0_1_2
        (broadcastInDim S1x1x2048 ![2] bcast_S2048_S1x1x2048_2 v) (ix3 b s j) = v (ix1 j) := by
  rw [broadcastInDim_apply _ _ _ (ix3 b s j) (ix3 (0 : Fin 1) (0 : Fin 1) j) (by
    intro a
    match a with
    | ⟨0, _⟩ => rfl
    | ⟨1, _⟩ => rfl
    | ⟨2, _⟩ => rfl)]
  exact broadcastInDim_apply _ _ _ (ix3 (0 : Fin 1) (0 : Fin 1) j) (ix1 j) (by
    intro a
    match a with
    | ⟨0, _⟩ => rfl)

/-- A per-token array repeated over the hidden units, read at (b, s, h), is its entry (b, s). -/
theorem repTok_apply (v : S8x4096.Idx → α) (b : Fin 8) (s : Fin 4096) (h : Fin 1024) :
    broadcastInDim S8x4096x1024 ![0, 1, 2] bcast_S8x4096x1_S8x4096x1024_0_1_2
        (broadcastInDim S8x4096x1 ![0, 1] bcast_S8x4096_S8x4096x1_0_1 v) (ix3 b s h) = v (ix2 b s) := by
  rw [broadcastInDim_apply _ _ _ (ix3 b s h) (ix3 b s (0 : Fin 1)) (by
    intro a
    match a with
    | ⟨0, _⟩ => rfl
    | ⟨1, _⟩ => rfl
    | ⟨2, _⟩ => rfl)]
  exact broadcastInDim_apply _ _ _ (ix3 b s (0 : Fin 1)) (ix2 b s) (by
    intro a
    match a with
    | ⟨0, _⟩ => rfl
    | ⟨1, _⟩ => rfl)

/-- The gate branch at (b, s, h) is pre-activation h. -/
theorem gate_apply (z : FVec Ideal S8x4096x2048 .f32) (b : Fin 8) (s : Fin 4096) (h : Fin 1024) :
    gate z (ix3 b s h) = z (ix3 b s (Cert.Spec.lo h)) := by
  unfold gate
  exact extractStridedSlice_apply _ z _ (ix3 b s h) (ix3 b s (Cert.Spec.lo h)) (by
    intro a
    match a with
    | ⟨0, _⟩ => exact (Nat.zero_add _).symm
    | ⟨1, _⟩ => exact (Nat.zero_add _).symm
    | ⟨2, _⟩ => exact (Nat.zero_add _).symm)

/-- The up branch at (b, s, h) is pre-activation 1024 + h. -/
theorem up_apply (z : FVec Ideal S8x4096x2048 .f32) (b : Fin 8) (s : Fin 4096) (h : Fin 1024) :
    up z (ix3 b s h) = z (ix3 b s (Cert.Spec.hi h)) := by
  unfold up
  exact extractStridedSlice_apply _ z _ (ix3 b s h) (ix3 b s (Cert.Spec.hi h)) (by
    intro a
    match a with
    | ⟨0, _⟩ => exact (Nat.zero_add _).symm
    | ⟨1, _⟩ => exact (Nat.zero_add _).symm
    | ⟨2, _⟩ => rfl)

/-- The first 1024 columns of `w2` at (d, h) are `w2` at (d, h). -/
theorem w2lo_apply (w2 : FVec Ideal S1024x2048 .f32) (d h : Fin 1024) :
    w2lo w2 (ix2 d h) = w2 (ix2 d (Cert.Spec.lo h)) := by
  unfold w2lo
  exact extractStridedSlice_apply _ w2 _ (ix2 d h) (ix2 d (Cert.Spec.lo h)) (by
    intro a
    match a with
    | ⟨0, _⟩ => exact (Nat.zero_add _).symm
    | ⟨1, _⟩ => exact (Nat.zero_add _).symm)

end Layout

/-! ## The float stages read at one entry -/

/-- The word 0x3F800000 denotes 1. -/
theorem ofBits_one : Ideal.ofBits .f32 0x3F800000#32 = 1 := by
  simp [Ideal.ofBits, Ideal.ieee, -EReal.coe_mul]; norm_num

/-- silu at one entry: g · σ(g), σ the logistic function. -/
theorem silu_apply (g : FVec Ideal S8x4096x1024 .f32) (i : S8x4096x1024.Idx) :
    silu g i = g i * Ideal.logistic (g i) := by
  show g i * Ideal.div (Ideal.ofBits .f32 0x3F800000#32) (Ideal.ofBits .f32 0x3F800000#32 + Ideal.exp (-(g i))) = _
  rw [ofBits_one]
  rfl

/-- The pre-activation array at (b, s, j) is the specification's `hid`. -/
theorem preact_apply (x : FVec Ideal S8x4096x1024 .f32) (w1 : FVec Ideal S2048x1024 .f32) (b1 : FVec Ideal S2048 .f32)
    (b : Fin 8) (s : Fin 4096) (j : Fin 2048) :
    preact x w1 b1 (ix3 b s j) = Cert.Spec.hid x w1 b1 b s j := by
  unfold preact Cert.Spec.hid
  rw [addf_apply, rep2048_apply]
  exact congrArg (· + b1 (ix1 j)) (dotRows_apply _ none x w1 b s j)

/-- The indicator at (b, s, h): the bit "h below the token's width", read as a real. -/
theorem mask_apply (wd : IVec S8x4096 32) (b : Fin 8) (s : Fin 4096) (h : Fin 1024) :
    mask (F := Ideal) wd (ix3 b s h)
      = (((IntOp.cmpi .slt (BitVec.ofNat 32 h.val) (wd (ix2 b s))).toNat : ℝ) : EReal) := by
  show (((IntOp.cmpi .slt _ _).toNat : ℝ) : EReal) = _
  rw [rep1024_apply, repTok_apply]
  rfl

/-! ## The indicator bit is the specification's live test -/

/-- Two naturals below 2^31, as 32-bit words, compare signed as they compare. -/
theorem slt_small (a n : Nat) (ha : a < 2 ^ 31) (hn : n < 2 ^ 31) :
    (BitVec.ofNat 32 a).slt (BitVec.ofNat 32 n) = decide (a < n) := by
  have h1 : (BitVec.ofNat 32 a).toInt = (a : Int) := by
    rw [BitVec.toInt_eq_toNat_of_lt (by rw [BitVec.toNat_ofNat]; omega), BitVec.toNat_ofNat]
    omega
  have h2 : (BitVec.ofNat 32 n).toInt = (n : Int) := by
    rw [BitVec.toInt_eq_toNat_of_lt (by rw [BitVec.toNat_ofNat]; omega), BitVec.toNat_ofNat]
    omega
  rw [BitVec.slt, h1, h2]
  simp

/-- The bit "h below n" (n below 2^31), read as a real, is 1 when h < n and 0 otherwise. -/
theorem bit_lt (h : Fin 1024) (n : Nat) (hn : n < 2 ^ 31) :
    (((IntOp.cmpi .slt (BitVec.ofNat 32 h.val) (BitVec.ofNat 32 n)).toNat : ℝ) : EReal)
      = if h.val < n then 1 else 0 := by
  have key : (BitVec.ofNat 32 h.val).slt (BitVec.ofNat 32 n) = decide (h.val < n) :=
    slt_small h.val n (by have := h.isLt; omega) hn
  show (((BitVec.ofBool ((BitVec.ofNat 32 h.val).slt (BitVec.ofNat 32 n))).toNat : ℝ) : EReal) = _
  rw [key]
  by_cases hh : h.val < n
  · rw [if_pos hh]; simp [hh]
  · rw [if_neg hh]; simp [hh]

/-- On an admitted expert id the indicator bit against the token's width is the live test. -/
theorem bit_live (e : BitVec 32) (he : Cert.Spec.InRange e) (h : Fin 1024) :
    (((IntOp.cmpi .slt (BitVec.ofNat 32 h.val) (W e)).toNat : ℝ) : EReal)
      = if Cert.Spec.live e h then 1 else 0 := by
  rcases he with rfl | rfl | rfl | rfl
  · rw [W_0]
    exact (bit_lt h 128 (by norm_num)).trans (if_congr (by unfold Cert.Spec.live; simp) rfl rfl)
  · rw [W_1]
    exact (bit_lt h 256 (by norm_num)).trans (if_congr (by unfold Cert.Spec.live; simp) rfl rfl)
  · rw [W_2]
    exact (bit_lt h 512 (by norm_num)).trans (if_congr (by unfold Cert.Spec.live; simp) rfl rfl)
  · rw [W_3]
    exact (bit_lt h 1024 (by norm_num)).trans (if_congr (by unfold Cert.Spec.live; simp) rfl rfl)

/-! ## One output entry -/

/-- A masked hidden unit of the program is the specification's. -/
theorem hidden_apply (x : FVec Ideal S8x4096x1024 .f32) (e : IVec S8x4096 32) (w1 : FVec Ideal S2048x1024 .f32)
    (b1 : FVec Ideal S2048 .f32) (he : ∀ i, Cert.Spec.InRange (e i)) (b : Fin 8) (s : Fin 4096) (h : Fin 1024) :
    HandTerm.hidden (preact x w1 b1) e (ix3 b s h) = Cert.Spec.masked x e w1 b1 b s h := by
  unfold HandTerm.hidden Cert.Spec.masked Cert.Spec.act
  rw [mulf_apply, mulf_apply, silu_apply, gate_apply, up_apply, preact_apply, preact_apply, mask_apply, width_apply,
    bit_live _ (he _)]
  by_cases hl : Cert.Spec.live (e (ix2 b s)) h
  · rw [if_pos hl, if_pos hl, mul_one]
  · rw [if_neg hl, if_neg hl, mul_zero]

/-- The reference's result at (b, s, d) is the specification's output entry. -/
theorem refOut_at (x : FVec Ideal S8x4096x1024 .f32) (e : IVec S8x4096 32) (w1 : FVec Ideal S2048x1024 .f32)
    (b1 : FVec Ideal S2048 .f32) (w2 : FVec Ideal S1024x2048 .f32) (b2 : FVec Ideal S1024 .f32)
    (he : ∀ i, Cert.Spec.InRange (e i)) (b : Fin 8) (s : Fin 4096) (d : Fin 1024) :
    Cert.ReferenceIdeal.HandTerm.refOut (F := Ideal) x e w1 b1 w2 b2 (ix3 b s d)
      = Cert.Spec.outAt x e w1 b1 w2 b2 b s d := by
  unfold Cert.ReferenceIdeal.HandTerm.refOut Cert.Spec.outAt
  rw [addf_apply, rep1024_apply]
  refine congrArg (· + b2 (ix1 d)) ?_
  refine (dotRows_apply _ none _ _ b s d).trans ?_
  refine Finset.sum_congr rfl fun h _ => ?_
  rw [hidden_apply x e w1 b1 he, w2lo_apply]

end Cert.ReferenceIdeal.HandValue

end
-- ==== Proof.lean ====
/-
  The certificate of a nested-width SwiGLU layer: a kernel that walks 32768 tokens in blocks of 1024 rows, four chunks of
  256 rows per block, against the plain reference.

  Both programs compute, for token (b, s) with expert id e = expert[b, s] and output column d,
      out[b, s, d] = (∑ h < 1024, (if h < 128 · 2^e then (g_h · σ(g_h)) · u_h else 0) · w2[d, h]) + b2[d],
      g_h = (∑ k, x[b, s, k] · w1[h, k]) + b1[h],   u_h = (∑ k, x[b, s, k] · w1[1024 + h, k]) + b1[1024 + h],
  on the extended reals (`Cert.Spec.outAt`).  The kernel reaches it through transposed weights, a clamped shift for the
  width, a `select` against zero and two matrix products per chunk; the reference through an integer power by repeated
  squaring, a floor division, a 0/1 mask multiplied in, and two contractions.  The statement's precondition puts every
  expert id in {0, 1, 2, 3}: there the two widths agree (128, 256, 512, 1024); outside it they do not (the kernel clamps
  the id, the reference does not).  Nothing needs the float inputs finite: the same products and sums appear in the same
  order on both sides, σ is one function on the extended reals, and multiplying by the mask is `x · 1 = x`, `x · 0 = 0`.

  The three frames: the kernel's two are the generated frame certificates; the reference's is its run (its host lines
  listed and run in order) with the result dropped.  The idealization rewrote nothing, so `preserves` is trivial.
  `algebraic`: the kernel program's run leaves the specification's entries in its result (the loop's four stored chunks
  read as one block function, the blocks as one array, the array reshaped), the reference's run leaves its composed term,
  and that term read at an entry is the specification's entry.
-/
import proofs.«428732_j68298569941561_3_alg».proof.Defs
import proofs.«428732_j68298569941561_3_alg».proof.Proof.Gen.Kernel
import proofs.«428732_j68298569941561_3_alg».proof.Proof.Gen.Kernel.Frame
import proofs.«428732_j68298569941561_3_alg».proof.Proof.Gen.KernelIdeal
import proofs.«428732_j68298569941561_3_alg».proof.Proof.Gen.KernelIdeal.Frame
import proofs.«428732_j68298569941561_3_alg».proof.Proof.Gen.ReferenceIdeal
import proofs.«428732_j68298569941561_3_alg».proof.Proof.Gen.Pre_finite_inputs
import proofs.«428732_j68298569941561_3_alg».proof.Proof.PreRange
import proofs.«428732_j68298569941561_3_alg».proof.Proof.KerRun
import proofs.«428732_j68298569941561_3_alg».proof.Proof.RefRun
import proofs.«428732_j68298569941561_3_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- From memories agreeing on the arguments, with every expert id admitted, both runs end with the same result: the
    reference's composed term of the arguments, which entry by entry is the specification's entry, as is the kernel's. -/
theorem algebraic : Cert.algebraic_KernelIdeal_ReferenceIdeal := by
  intro m ρ m' ρ' hpre hagree
  have hr : ∀ (c : Dev Cert.KernelIdeal.nD) (i : Cert.KernelIdeal.S8x4096.Idx),
      Cert.Spec.InRange (m ((c.tc : Thread Cert.KernelIdeal.nD Cert.KernelIdeal.τ).loc Cert.KernelIdeal.main_arg1) i) :=
    fun c i => Cert.PreRange.range_of_pre _ _ _ _ _ _ (hpre c) i
  refine ⟨fun c => Cert.ReferenceIdeal.HandTerm.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨?_, (h c).2⟩) (Cert.KernelIdeal.HandValue.run m ρ hr)
    funext i
    obtain ⟨b, s, d, rfl⟩ : ∃ (b : Fin 8) (s : Fin 4096) (d : Fin 1024), i = ix3 b s d := ⟨i 0, i 1, i 2, eq_ix3 i⟩
    rw [(h c).1 b s d]
    exact (Cert.ReferenceIdeal.HandValue.refOut_at _ _ _ _ _ _ (hr c) b s d).symm
  · refine (θ_run Cert.ReferenceIdeal.defs _ _).mono (fun r h c => ⟨(h c).1.trans ?_, (h c).2⟩)
      (Cert.ReferenceIdeal.HandRun.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
